-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x1536 : Shape := ⟨2, ![512, 1536]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x512 .f32) (main_arg1 : FVec F S512x1536 .f32) (main_arg2 : FVec F S512x512 .f32) (main_arg3 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x512 : Shape := ⟨2, ![4096, 512]⟩
abbrev S512x1536 : Shape := ⟨2, ![512, 1536]⟩
abbrev S512x512 : Shape := ⟨2, ![512, 512]⟩
abbrev S512 : Shape := ⟨1, ![512]⟩
abbrev S4096x1536 : Shape := ⟨2, ![4096, 1536]⟩
abbrev S1x512 : Shape := ⟨2, ![1, 512]⟩
abbrev S256x512 : Shape := ⟨2, ![256, 512]⟩
abbrev S256x32 : Shape := ⟨2, ![256, 32]⟩
abbrev S4096x32 : Shape := ⟨2, ![4096, 32]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S4096x512, .bf16⟩
  | .hbm, ⟨5, _⟩ => ⟨S512x1536, .bf16⟩
  | .hbm, ⟨6, _⟩ => ⟨S512x512, .bf16⟩
  | .hbm, ⟨7, _⟩ => ⟨S4096x1536, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S1x512, .f32⟩
  | .hbm, ⟨12, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S256x512, .bf16⟩
  | .local _ .vmem, ⟨6, _⟩ => ⟨S256x512, .bf16⟩
  | .local _ .vmem, ⟨7, _⟩ => ⟨S4096x512, .bf16⟩
  | .local _ .vmem, ⟨8, _⟩ => ⟨S4096x512, .bf16⟩
  | .local _ .vmem, ⟨9, _⟩ => ⟨S512x512, .bf16⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  inb_S512x1536_S512x512_0_0 : ∀ a, (![0, 0] : Fin 2 → Nat) a + S512x512.size a ≤ S512x1536.size a
  packedbf16_S512x1536_S512x512_0_0 : (Rect.unit (s := S512x1536) ![0, 0] S512x512.size inb_S512x1536_S512x512_0_0).PackedRows (EltTy.packing .bf16)
  inb_S512x1536_S512x512_0_512 : ∀ a, (![0, 512] : Fin 2 → Nat) a + S512x512.size a ≤ S512x1536.size a
  packedbf16_S512x1536_S512x512_0_512 : (Rect.unit (s := S512x1536) ![0, 512] S512x512.size inb_S512x1536_S512x512_0_512).PackedRows (EltTy.packing .bf16)
  inb_S512x1536_S512x512_0_1024 : ∀ a, (![0, 1024] : Fin 2 → Nat) a + S512x512.size a ≤ S512x1536.size a
  packedbf16_S512x1536_S512x512_0_1024 : (Rect.unit (s := S512x1536) ![0, 1024] S512x512.size inb_S512x1536_S512x512_0_1024).PackedRows (EltTy.packing .bf16)
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  shapeCasts_S512_S1x512 : S512.ShapeCasts S1x512
  inb_S256x512_S256x32_0_0 : ∀ a, (![0, 0] : Fin 2 → Nat) a + S256x32.size a ≤ S256x512.size a
  h_S256x32 : 0 < S256x32.numel
  shapeCasts_S256x32_S256x32 : S256x32.ShapeCasts S256x32
  inb_S4096x512_S4096x32_0_0 : ∀ a, (![0, 0] : Fin 2 → Nat) a + S4096x32.size a ≤ S4096x512.size a
  h_S4096x32 : 0 < S4096x32.numel
  shapeCasts_S4096x32_S4096x32 : S4096x32.ShapeCasts S4096x32
  reduces_S256x4096_S256 : S256x4096.Reduces [1] S256
  shapeCasts_S256_S256x1 : S256.ShapeCasts S256x1
  broadcasts_S256x1_S256x4096 : S256x1.Broadcasts S256x4096
  broadcasts_S256x1_S256x32 : S256x1.Broadcasts S256x32
  packedbf16_S256x512_S256x32_0_0 : (Rect.unit (s := S256x512) ![0, 0] S256x32.size inb_S256x512_S256x32_0_0).PackedRows (EltTy.packing .bf16)
  inb_S256x512_S256x32_0_32 : ∀ a, (![0, 32] : Fin 2 → Nat) a + S256x32.size a ≤ S256x512.size a
  inb_S4096x512_S4096x32_0_32 : ∀ a, (![0, 32] : Fin 2 → Nat) a + S4096x32.size a ≤ S4096x512.size a
  packedbf16_S256x512_S256x32_0_32 : (Rect.unit (s := S256x512) ![0, 32] S256x32.size inb_S256x512_S256x32_0_32).PackedRows (EltTy.packing .bf16)
  inb_S256x512_S256x32_0_64 : ∀ a, (![0, 64] : Fin 2 → Nat) a + S256x32.size a ≤ S256x512.size a
  inb_S4096x512_S4096x32_0_64 : ∀ a, (![0, 64] : Fin 2 → Nat) a + S4096x32.size a ≤ S4096x512.size a
  packedbf16_S256x512_S256x32_0_64 : (Rect.unit (s := S256x512) ![0, 64] S256x32.size inb_S256x512_S256x32_0_64).PackedRows (EltTy.packing .bf16)
  inb_S256x512_S256x32_0_96 : ∀ a, (![0, 96] : Fin 2 → Nat) a + S256x32.size a ≤ S256x512.size a
  inb_S4096x512_S4096x32_0_96 : ∀ a, (![0, 96] : Fin 2 → Nat) a + S4096x32.size a ≤ S4096x512.size a
  packedbf16_S256x512_S256x32_0_96 : (Rect.unit (s := S256x512) ![0, 96] S256x32.size inb_S256x512_S256x32_0_96).PackedRows (EltTy.packing .bf16)
  inb_S256x512_S256x32_0_128 : ∀ a, (![0, 128] : Fin 2 → Nat) a + S256x32.size a ≤ S256x512.size a
  inb_S4096x512_S4096x32_0_128 : ∀ a, (![0, 128] : Fin 2 → Nat) a + S4096x32.size a ≤ S4096x512.size a
  packedbf16_S256x512_S256x32_0_128 : (Rect.unit (s := S256x512) ![0, 128] S256x32.size inb_S256x512_S256x32_0_128).PackedRows (EltTy.packing .bf16)
  inb_S256x512_S256x32_0_160 : ∀ a, (![0, 160] : Fin 2 → Nat) a + S256x32.size a ≤ S256x512.size a
  inb_S4096x512_S4096x32_0_160 : ∀ a, (![0, 160] : Fin 2 → Nat) a + S4096x32.size a ≤ S4096x512.size a
  packedbf16_S256x512_S256x32_0_160 : (Rect.unit (s := S256x512) ![0, 160] S256x32.size inb_S256x512_S256x32_0_160).PackedRows (EltTy.packing .bf16)
  inb_S256x512_S256x32_0_192 : ∀ a, (![0, 192] : Fin 2 → Nat) a + S256x32.size a ≤ S256x512.size a
  inb_S4096x512_S4096x32_0_192 : ∀ a, (![0, 192] : Fin 2 → Nat) a + S4096x32.size a ≤ S4096x512.size a
  packedbf16_S256x512_S256x32_0_192 : (Rect.unit (s := S256x512) ![0, 192] S256x32.size inb_S256x512_S256x32_0_192).PackedRows (EltTy.packing .bf16)
  inb_S256x512_S256x32_0_224 : ∀ a, (![0, 224] : Fin 2 → Nat) a + S256x32.size a ≤ S256x512.size a
  inb_S4096x512_S4096x32_0_224 : ∀ a, (![0, 224] : Fin 2 → Nat) a + S4096x32.size a ≤ S4096x512.size a
  packedbf16_S256x512_S256x32_0_224 : (Rect.unit (s := S256x512) ![0, 224] S256x32.size inb_S256x512_S256x32_0_224).PackedRows (EltTy.packing .bf16)
  inb_S256x512_S256x32_0_256 : ∀ a, (![0, 256] : Fin 2 → Nat) a + S256x32.size a ≤ S256x512.size a
  inb_S4096x512_S4096x32_0_256 : ∀ a, (![0, 256] : Fin 2 → Nat) a + S4096x32.size a ≤ S4096x512.size a
  packedbf16_S256x512_S256x32_0_256 : (Rect.unit (s := S256x512) ![0, 256] S256x32.size inb_S256x512_S256x32_0_256).PackedRows (EltTy.packing .bf16)
  inb_S256x512_S256x32_0_288 : ∀ a, (![0, 288] : Fin 2 → Nat) a + S256x32.size a ≤ S256x512.size a
  inb_S4096x512_S4096x32_0_288 : ∀ a, (![0, 288] : Fin 2 → Nat) a + S4096x32.size a ≤ S4096x512.size a
  packedbf16_S256x512_S256x32_0_288 : (Rect.unit (s := S256x512) ![0, 288] S256x32.size inb_S256x512_S256x32_0_288).PackedRows (EltTy.packing .bf16)
  inb_S256x512_S256x32_0_320 : ∀ a, (![0, 320] : Fin 2 → Nat) a + S256x32.size a ≤ S256x512.size a
  inb_S4096x512_S4096x32_0_320 : ∀ a, (![0, 320] : Fin 2 → Nat) a + S4096x32.size a ≤ S4096x512.size a
  packedbf16_S256x512_S256x32_0_320 : (Rect.unit (s := S256x512) ![0, 320] S256x32.size inb_S256x512_S256x32_0_320).PackedRows (EltTy.packing .bf16)
  inb_S256x512_S256x32_0_352 : ∀ a, (![0, 352] : Fin 2 → Nat) a + S256x32.size a ≤ S256x512.size a
  inb_S4096x512_S4096x32_0_352 : ∀ a, (![0, 352] : Fin 2 → Nat) a + S4096x32.size a ≤ S4096x512.size a
  packedbf16_S256x512_S256x32_0_352 : (Rect.unit (s := S256x512) ![0, 352] S256x32.size inb_S256x512_S256x32_0_352).PackedRows (EltTy.packing .bf16)
  inb_S256x512_S256x32_0_384 : ∀ a, (![0, 384] : Fin 2 → Nat) a + S256x32.size a ≤ S256x512.size a
  inb_S4096x512_S4096x32_0_384 : ∀ a, (![0, 384] : Fin 2 → Nat) a + S4096x32.size a ≤ S4096x512.size a
  packedbf16_S256x512_S256x32_0_384 : (Rect.unit (s := S256x512) ![0, 384] S256x32.size inb_S256x512_S256x32_0_384).PackedRows (EltTy.packing .bf16)
  inb_S256x512_S256x32_0_416 : ∀ a, (![0, 416] : Fin 2 → Nat) a + S256x32.size a ≤ S256x512.size a
  inb_S4096x512_S4096x32_0_416 : ∀ a, (![0, 416] : Fin 2 → Nat) a + S4096x32.size a ≤ S4096x512.size a
  packedbf16_S256x512_S256x32_0_416 : (Rect.unit (s := S256x512) ![0, 416] S256x32.size inb_S256x512_S256x32_0_416).PackedRows (EltTy.packing .bf16)
  inb_S256x512_S256x32_0_448 : ∀ a, (![0, 448] : Fin 2 → Nat) a + S256x32.size a ≤ S256x512.size a
  inb_S4096x512_S4096x32_0_448 : ∀ a, (![0, 448] : Fin 2 → Nat) a + S4096x32.size a ≤ S4096x512.size a
  packedbf16_S256x512_S256x32_0_448 : (Rect.unit (s := S256x512) ![0, 448] S256x32.size inb_S256x512_S256x32_0_448).PackedRows (EltTy.packing .bf16)
  inb_S256x512_S256x32_0_480 : ∀ a, (![0, 480] : Fin 2 → Nat) a + S256x32.size a ≤ S256x512.size a
  inb_S4096x512_S4096x32_0_480 : ∀ a, (![0, 480] : Fin 2 → Nat) a + S4096x32.size a ≤ S4096x512.size a
  packedbf16_S256x512_S256x32_0_480 : (Rect.unit (s := S256x512) ![0, 480] S256x32.size inb_S256x512_S256x32_0_480).PackedRows (EltTy.packing .bf16)
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S512x512_S512x1536_S512x1536_1_0_0_1_n_n_wf : DotDims.WF S512x512 S512x1536 S512x1536 [1] [0] [0] [1] [] []
  dot_S256x32_S4096x32_S256x4096_1_1_0_0_n_n_wf : DotDims.WF S256x32 S4096x32 S256x4096 [1] [1] [0] [0] [] []
  dot_S256x4096_S4096x32_S256x32_1_0_0_1_n_n_wf : DotDims.WF S256x4096 S4096x32 S256x32 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S4096x1536.size a
  hwx0_2 : ∀ i : grid0.Coords, EltTy.bits .bf16 = 32 ∨ (Rect.block (s := S4096x1536) S512x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .bf16 = 32 ∨ (Rect.block (s := S4096x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S4096x512.size a
  hwx1_5 : ∀ i : grid1.Coords, EltTy.bits .f32 = 32 ∨ (Rect.block (s := S4096x512) S256x512.size (cc1_transform_5 i) (hinb1_5 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S256x32_S4096x32_S256x4096_1_1_0_0_n_n : DotDims S256x32 S4096x32 S256x4096 where
  lhsContracting := [1]
  rhsContracting := [1]
  lhsNonContracting := [0]
  rhsNonContracting := [0]
  lhsBatch := []
  rhsBatch := []
  wf := dot_S256x32_S4096x32_S256x4096_1_1_0_0_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S256x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x512 : Shape := ⟨2, ![4096, 512]⟩
abbrev S512x1536 : Shape := ⟨2, ![512, 1536]⟩
abbrev S512x512 : Shape := ⟨2, ![512, 512]⟩
abbrev S512 : Shape := ⟨1, ![512]⟩
abbrev S4096x1536 : Shape := ⟨2, ![4096, 1536]⟩
abbrev S4096x16x32 : Shape := ⟨3, ![4096, 16, 32]⟩
abbrev S16x4096x32 : Shape := ⟨3, ![16, 4096, 32]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S4096x1536, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x16x32, .f32⟩
  | .hbm, ⟨9, _⟩ => ⟨S16x4096x32, .f32⟩
  | .hbm, ⟨10, _⟩ => ⟨S4096x16x32, .f32⟩
  | .hbm, ⟨11, _⟩ => ⟨S16x4096x32, .f32⟩
  | .hbm, ⟨12, _⟩ => ⟨S4096x16x32, .f32⟩
  | .hbm, ⟨13, _⟩ => ⟨S16x4096x32, .f32⟩
  | .hbm, ⟨14, _⟩ => ⟨S_, .f32⟩
  | .hbm, ⟨15, _⟩ => ⟨S16x4096x32, .f32⟩
  | .hbm, ⟨16, _⟩ => ⟨S16x4096x32, .f32⟩
  | .hbm, ⟨17, _⟩ => ⟨S_, .f32⟩
  | .hbm, ⟨18, _⟩ => ⟨S16x4096x32, .f32⟩
  | .hbm, ⟨19, _⟩ => ⟨S16x4096x32, .f32⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S_, .f32⟩
  | .hbm, ⟨27, _⟩ => ⟨S16x4096, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x32, .f32⟩
  | .hbm, ⟨39, _⟩ => ⟨S4096x16x32, .f32⟩
  | .hbm, ⟨40, _⟩ => ⟨S4096x512, .f32⟩
  | .hbm, ⟨41, _⟩ => ⟨S4096x512, .f32⟩
  | .hbm, ⟨42, _⟩ => ⟨S1x512, .f32⟩
  | .hbm, ⟨43, _⟩ => ⟨S4096x512, .f32⟩
  | .hbm, ⟨44, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_call1_cst : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  shapeCasts_S4096x512_S4096x16x32 : S4096x512.ShapeCasts S4096x16x32
  transposes_S4096x16x32_S16x4096x32_1_0_2 : S4096x16x32.Transposes [1, 0, 2] S16x4096x32
  bcast_S_S16x4096x32 : S_.BroadcastsInDim S16x4096x32 (![] : Fin 0 → Fin S16x4096x32.rank)
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x32_S4096x16x32_1_0_2 : S16x4096x32.Transposes [1, 0, 2] S4096x16x32
  shapeCasts_S4096x16x32_S4096x512 : S4096x16x32.ShapeCasts S4096x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x512_S512x1536_S4096x1536_1_0_0_1_n_n_wf : DotDims.WF S4096x512 S512x1536 S4096x1536 [1] [0] [0] [1] [] []
  dot_S16x4096x32_S16x4096x32_S16x4096x4096_2_2_1_1_0_0_wf : DotDims.WF S16x4096x32 S16x4096x32 S16x4096x4096 [2] [2] [1] [1] [0] [0]
  dot_S16x4096x4096_S16x4096x32_S16x4096x32_2_1_1_2_0_0_wf : DotDims.WF S16x4096x4096 S16x4096x32 S16x4096x32 [2] [1] [1] [2] [0] [0]
  dot_S4096x512_S512x512_S4096x512_1_0_0_1_n_n_wf : DotDims.WF S4096x512 S512x512 S4096x512 [1] [0] [0] [1] [] []

variable [Facts₀]

def dot_S4096x512_S512x1536_S4096x1536_1_0_0_1_n_n : DotDims S4096x512 S512x1536 S4096x1536 where
  lhsContracting := [1]
  rhsContracting := [0]
  lhsNonContracting := [0]
  rhsNonContracting := [1]
  lhsBatch := []
  rhsBatch := []
  wf := dot_S4096x512_S512x1536_S4096x1536_1_0_0_1_n_n_wf
def dot_S16x4096x32_S16x4096x32_S16x4096x4096_2_2_1_1_0_0 : DotDims S16x4096x32 S16x4096x32 S16x4096x4096 where
  lhsContracting := [2]
  rhsContracting := [2]
  lhsNonContracting := [1]
  rhsNonContracting := [1]
  lhsBatch := [0]
  rhsBatch := [0]
  wf := dot_S16x4096x32_S16x4096x32_S16x4096x4096_2_2_1_1_0_0_wf
def dot_S16x4096x4096_S16x4096x32_S16x4096x32_2_1_1_2_0_0 : DotDims S16x4096x4096 S16x4096x32 S16x4096x32 where
  lhsContracting := [2]
  rhsContracting := [1]
  lhsNonContracting := [1]
  rhsNonContracting := [2]
  lhsBatch := [0]
  rhsBatch := [0]
  wf := dot_S16x4096x4096_S16x4096x32_S16x4096x32_2_1_1_2_0_0_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  The mathematics of the certificate, with no program in sight: relu-kernel softmax attention over 16 heads of width 32
  on 4096 rows of width 512, as two functions of the argument matrices over the extended reals.

  Both start from the projection `P = X · Wqkv` (4096 × 1536; columns 0‥511 the queries, 512‥1023 the keys,
  1024‥1535 the values; head `h` owns lanes `32h ‥ 32h+31` of each third).

  * The kernel's way (`KOut`): the scale `c` is folded into the queries (`max(P,0)·c`), a head's score is
    `s_ij = ∑_d q_id · k_jd`, its weights are `e_ij = exp(s_ij − max_j s_ij)`, and the head's output divides ONCE, after
    the weighted sum: `(∑_j e_ij · v_jd) / (∑_j e_ij)`.
  * The reference's way (`outR`): the scale multiplies the finished score, `s_ij = (∑_d max(P,0)_id · max(P,0)_jd) · c`,
    and each weight is normalised before the weighted sum: `∑_j (e_ij / ∑_j' e_ij') · v_jd`.

  Then both apply the output projection `· Wout + b`. The two agree whenever `X` and `Wqkv` hold finite numbers
  (`KOut_eq_outR`): scores are then real, so the scale moves across the finite sum, the row maximum is real, the
  weights are positive reals, and division by their (positive, real) sum distributes over the finite weighted sum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx
open scoped BigOperators

/-- A matrix of extended reals by its two coordinates. -/
abbrev Mat (a b : Nat) := Fin a → Fin b → EReal

/-- An array of rank 2 read by its two coordinates. -/
def toMat {a b : Nat} (A : (⟨2, ![a, b]⟩ : Shape).Idx → EReal) : Mat a b := fun i k => A (ix2 i k)
/-- A matrix as an array of rank 2. -/
def ofMat {a b : Nat} (M : Mat a b) : (⟨2, ![a, b]⟩ : Shape).Idx → EReal := fun y => M (y 0) (y 1)
/-- An array of rank 1 read by its coordinate. -/
def toVec {n : Nat} (v : (⟨1, ![n]⟩ : Shape).Idx → EReal) : Fin n → EReal := fun k => v (ix1 k)

/-- The scale `32^(-1/2)` as both programs spell it: the binary32 value of the pattern. -/
def scale : EReal := Ideal.ofBits .f32 0x3E3504F3#32
/-- The pattern of `-∞`, the start of every row maximum. -/
def ninf : EReal := Ideal.ofBits .f32 0xFF800000#32
/-- The pattern of `0.0`. -/
def zero : EReal := Ideal.ofBits .f32 0x00000000#32

/-- The projection `X · Wqkv`. -/
def proj (X : Mat 4096 512) (W : Mat 512 1536) : Mat 4096 1536 := fun i n => ∑ k : Fin 512, X i k * W k n

/-- Lane `d` of head `h` among 512 columns. -/
def hcol (h : Fin 16) (d : Fin 32) : Fin 512 := ⟨32 * h.val + d.val, by omega⟩
/-- The head that owns column `cc`. -/
def headOf (cc : Fin 512) : Fin 16 := ⟨cc.val / 32, by omega⟩
/-- The lane of column `cc` inside its head. -/
def laneOf (cc : Fin 512) : Fin 32 := ⟨cc.val % 32, by omega⟩

/-- A row's maximum: the fold of `max` from `-∞` over its 4096 entries. -/
def rowMax (s : Fin 4096 → EReal) : EReal := (Finset.univ : Finset (Fin 4096)).fold max ninf s

/-! ## The kernel's way -/

/-- What the first call leaves: queries relu'd and scaled, keys relu'd, values as projected. -/
def qkvK (P : Mat 4096 1536) : Mat 4096 1536 := fun i n =>
  if n.val < 512 then max (P i n) zero * scale else if n.val < 1024 then max (P i n) zero else P i n

/-- The three column thirds of a 4096 × 1536 matrix. -/
def segQ (A : Mat 4096 1536) : Mat 4096 512 := fun i cc => A i ⟨cc.val, by omega⟩
def segK (A : Mat 4096 1536) : Mat 4096 512 := fun i cc => A i ⟨512 + cc.val, by omega⟩
def segV (A : Mat 4096 1536) : Mat 4096 512 := fun i cc => A i ⟨1024 + cc.val, by omega⟩

/-- One output entry of one head from its score row `s` and its value column `v`: the weighted sum of the values,
    divided once by the sum of the weights. -/
def attnK (s v : Fin 4096 → EReal) : EReal :=
  Ideal.div (∑ j : Fin 4096, Ideal.exp (s j - rowMax s) * v j) (∑ j : Fin 4096, Ideal.exp (s j - rowMax s))

/-- One output row from one (already relu'd and scaled) query row, the keys, the values, the output weights and the bias. -/
def outRow (qrow : Fin 512 → EReal) (k v : Mat 4096 512) (wo : Mat 512 512) (b : Fin 512 → EReal) : Fin 512 → EReal :=
  fun n => (∑ cc : Fin 512,
      attnK (fun j => ∑ d : Fin 32, qrow (hcol (headOf cc) d) * k j (hcol (headOf cc) d)) (fun j => v j cc) * wo cc n) + b n

/-- The second call, as a function of the five arrays it is entered with. -/
def outK (q k v : Mat 4096 512) (wo : Mat 512 512) (b : Fin 512 → EReal) : Mat 4096 512 := fun i => outRow (q i) k v wo b

/-- The whole kernel as a function of its arguments. -/
def KOut (X : Mat 4096 512) (W : Mat 512 1536) (Wo : Mat 512 512) (b : Fin 512 → EReal) : Mat 4096 512 :=
  outK (segQ (qkvK (proj X W))) (segK (qkvK (proj X W))) (segV (qkvK (proj X W))) Wo b

/-! ## The reference's way -/

def qcol (h : Fin 16) (d : Fin 32) : Fin 1536 := ⟨32 * h.val + d.val, by omega⟩
def kcol (h : Fin 16) (d : Fin 32) : Fin 1536 := ⟨512 + (32 * h.val + d.val), by omega⟩
def vcol (h : Fin 16) (d : Fin 32) : Fin 1536 := ⟨1024 + (32 * h.val + d.val), by omega⟩

/-- Head `h`'s score of query row `i` against key row `j`: the scale multiplies the finished sum. -/
def scoreR (P : Mat 4096 1536) (h : Fin 16) (i j : Fin 4096) : EReal :=
  (∑ d : Fin 32, max (P i (qcol h d)) zero * max (P j (kcol h d)) zero) * scale

/-- One output entry of one head: each weight normalised, then the weighted sum. -/
def attnR (s v : Fin 4096 → EReal) : EReal :=
  ∑ j : Fin 4096, Ideal.div (Ideal.exp (s j - max ninf (rowMax s)))
      (zero + ∑ j' : Fin 4096, Ideal.exp (s j' - max ninf (rowMax s))) * v j

/-- The heads' outputs side by side. -/
def concatR (P : Mat 4096 1536) : Mat 4096 512 := fun i cc =>
  attnR (scoreR P (headOf cc) i) (fun j => P j (vcol (headOf cc) (laneOf cc)))

/-- The reference as a function of its arguments. -/
def outR (X : Mat 4096 512) (W : Mat 512 1536) (Wo : Mat 512 512) (b : Fin 512 → EReal) : Mat 4096 512 :=
  fun i n => (∑ cc : Fin 512, concatR (proj X W) i cc * Wo cc n) + b n

end Cert.Attn

end
-- ==== Proof.Region0.lean ====
/-
  The array the first call leaves.

  The first call walks 8 points; point `t` takes rows 512 t ‥ 512 t + 511 of `x` and all of the weights `Wqkv`, forms
  the 512 × 1536 accumulator `acc = xblock · Wqkv` (entry (r, n) is ∑ₖ xblock(r, k) · Wqkv(k, n)), and stores three
  thirds of it side by side: columns 0‥511 as max(acc, 0) · c (the queries), columns 512‥1023 as max(acc, 0) (the keys),
  columns 1024‥1535 as they are (the values). The three stores tile the block, so the block is ONE function of the
  block of `x` and the weights (`blockG`); row `r` of block `t` is row 512 t + r of the whole result; the 8 blocks of
  rows cover the 4096 rows. The conversions of `x` and `Wqkv` to the narrower format before the call, and the
  conversions of the stored thirds, change nothing over the extended reals.
-/
import proofs.«422940_j34505767256281_3_alg».proof.Proof.Gen.KernelIdeal.Frame
import proofs.«422940_j34505767256281_3_alg».proof.Proof.Spec
import Idealize.ShloMosaic.Lib.Pipeline.Value
import Idealize.ShloMosaic.Lib.ValueIdx
import Idealize.ShloMosaic.PureOps.Ideal.Laws

set_option maxRecDepth 16384
noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.Sem
open Cert.Attn
open scoped BigOperators

/-! ## The accumulator at an index

The contraction runs over the second axis of the left operand and the first of the right: read through the dimension
numbers, the left index is (row, k) and the right index is (k, column). -/

theorem lhs_acc_0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem lhs_acc_1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem rhs_acc_0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem rhs_acc_1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- The accumulator of one block: entry (r, n) is row r of the x block against column n of the weights. -/
theorem acc_apply (x : FVec Ideal S512x512 .bf16) (w : FVec Ideal S512x1536 .bf16) (r : Fin 512) (n : Fin 1536) :
    k0_pay1 (F := Ideal) x w (ix2 r n) = ∑ k : Fin 512, x (ix2 r k) * w (ix2 k n) := by
  unfold k0_pay1
  rw [shapeCast_self, shapeCast_self]
  refine (Ideal.matmul_constant_zero_apply dot_S512x512_S512x1536_S512x1536_1_0_0_1_n_n none x w (ix2 r n)).trans ?_
  rw [← Equiv.sum_comp (ValueIdx.contrEquiv1 dot_S512x512_S512x1536_S512x1536_1_0_0_1_n_n 512 rfl rfl).symm]
  refine Finset.sum_congr rfl fun k _ => ?_
  have hk := ValueIdx.contrEquiv1_symm_val dot_S512x512_S512x1536_S512x1536_1_0_0_1_n_n 512 rfl rfl k
  have el : dot_S512x512_S512x1536_S512x1536_1_0_0_1_n_n.lhsIdx (ix2 r n) ((ValueIdx.contrEquiv1 dot_S512x512_S512x1536_S512x1536_1_0_0_1_n_n 512 rfl rfl).symm k) = ix2 r k := funext fun a => Fin.ext (by
    match a with
    | ⟨0, _⟩ => exact lhs_acc_0 _ _
    | ⟨1, _⟩ => exact (lhs_acc_1 _ _).trans hk)
  have er : dot_S512x512_S512x1536_S512x1536_1_0_0_1_n_n.rhsIdx (ix2 r n) ((ValueIdx.contrEquiv1 dot_S512x512_S512x1536_S512x1536_1_0_0_1_n_n 512 rfl rfl).symm k) = ix2 k n := funext fun a => Fin.ext (by
    match a with
    | ⟨0, _⟩ => exact (rhs_acc_0 _ _).trans hk
    | ⟨1, _⟩ => exact rhs_acc_1 _ _)
  rw [el, er]

/-! ## The three payloads at an index, as parts of one block function -/

/-- What the first call does to one projected entry of column `n`: queries are clamped at zero and scaled, keys are
    clamped at zero, values pass. -/
def act (n : Fin 1536) (p : EReal) : EReal :=
  if n.val < 512 then max p zero * scale else if n.val < 1024 then max p zero else p

theorem qkvK_eq (P : Mat 4096 1536) (i : Fin 4096) (n : Fin 1536) : qkvK P i n = act n (P i n) := rfl

/-- One 512 × 1536 block of the result from the block of 512 rows of `x` and the weights. -/
def blockG (x : Vec Ideal S512x512 .bf16) (w : Vec Ideal S512x1536 .bf16) : Vec Ideal S512x1536 .bf16 :=
  fun y => act (y 1) (∑ k : Fin 512, x (ix2 (y 0) k) * w (ix2 k (y 1)))

theorem blockG_apply (x : Vec Ideal S512x512 .bf16) (w : Vec Ideal S512x1536 .bf16) (r : Fin 512) (n : Fin 1536) :
    blockG x w (ix2 r n) = act n (∑ k : Fin 512, x (ix2 r k) * w (ix2 k n)) := rfl

/-- The query third of the block: columns 0‥511 of the accumulator, clamped at zero and scaled. -/
theorem payQ_apply (x : Vec Ideal S512x512 .bf16) (w : Vec Ideal S512x1536 .bf16) (r q : Fin 512) :
    k0_pay2 (F := Ideal) x w (ix2 r q) = blockG x w (ix2 r ⟨q.val, by omega⟩) := by
  rw [blockG_apply, ← acc_apply, act, if_pos (show (⟨q.val, by omega⟩ : Fin 1536).val < 512 from q.isLt)]
  unfold k0_pay2
  have e : extractStridedSlice S512x512 ![0, 0] (k0_pay1 (F := Ideal) x w) slices_S512x1536_o0_0_S512x512 (ix2 r q)
      = k0_pay1 (F := Ideal) x w (ix2 r ⟨q.val, by omega⟩) :=
    extractStridedSlice_apply ![0, 0] _ _ (ix2 r q) (ix2 r ⟨q.val, by omega⟩) (fun a => by
      match a with
      | ⟨0, _⟩ => exact (Nat.zero_add _).symm
      | ⟨1, _⟩ => exact (Nat.zero_add _).symm)
  exact congrArg (fun v => max v zero * scale) e

/-- The key third: columns 512‥1023 of the accumulator, clamped at zero. -/
theorem payK_apply (x : Vec Ideal S512x512 .bf16) (w : Vec Ideal S512x1536 .bf16) (r q : Fin 512) :
    k0_pay3 (F := Ideal) x w (ix2 r q) = blockG x w (ix2 r ⟨512 + q.val, by omega⟩) := by
  rw [blockG_apply, ← acc_apply, act, if_neg (show ¬ (⟨512 + q.val, by omega⟩ : Fin 1536).val < 512 from by show ¬ 512 + q.val < 512; omega),
    if_pos (show (⟨512 + q.val, by omega⟩ : Fin 1536).val < 1024 from by show 512 + q.val < 1024; omega)]
  unfold k0_pay3
  have e : extractStridedSlice S512x512 ![0, 512] (k0_pay1 (F := Ideal) x w) slices_S512x1536_o0_512_S512x512 (ix2 r q)
      = k0_pay1 (F := Ideal) x w (ix2 r ⟨512 + q.val, by omega⟩) :=
    extractStridedSlice_apply ![0, 512] _ _ (ix2 r q) (ix2 r ⟨512 + q.val, by omega⟩) (fun a => by
      match a with
      | ⟨0, _⟩ => exact (Nat.zero_add _).symm
      | ⟨1, _⟩ => rfl)
  exact congrArg (fun v => max v zero) e

/-- The value third: columns 1024‥1535 of the accumulator as they are. -/
theorem payV_apply (x : Vec Ideal S512x512 .bf16) (w : Vec Ideal S512x1536 .bf16) (r q : Fin 512) :
    k0_pay4 (F := Ideal) x w (ix2 r q) = blockG x w (ix2 r ⟨1024 + q.val, by omega⟩) := by
  rw [blockG_apply, ← acc_apply, act, if_neg (show ¬ (⟨1024 + q.val, by omega⟩ : Fin 1536).val < 512 from by show ¬ 1024 + q.val < 512; omega),
    if_neg (show ¬ (⟨1024 + q.val, by omega⟩ : Fin 1536).val < 1024 from by show ¬ 1024 + q.val < 1024; omega)]
  unfold k0_pay4
  have e : extractStridedSlice S512x512 ![0, 1024] (k0_pay1 (F := Ideal) x w) slices_S512x1536_o0_1024_S512x512 (ix2 r q)
      = k0_pay1 (F := Ideal) x w (ix2 r ⟨1024 + q.val, by omega⟩) :=
    extractStridedSlice_apply ![0, 1024] _ _ (ix2 r q) (ix2 r ⟨1024 + q.val, by omega⟩) (fun a => by
      match a with
      | ⟨0, _⟩ => exact (Nat.zero_add _).symm
      | ⟨1, _⟩ => rfl)
  exact e

/-! ## The three stores make one block -/

theorem hz : (![0, 0] : Fin 2 → Nat) = fun _ => 0 := funext fun a => by fin_cases a <;> rfl

/-- Where the three stores put an entry of their 512 × 512 payload in the 512 × 1536 block. -/
theorem embQ (r q : Fin 512) : (r0_2 : Rect S512x1536).emb (ix2 r q) = ix2 r ⟨q.val, by omega⟩ :=
  funext fun a => Fin.ext (by
    match a with
    | ⟨0, _⟩ => show 0 + 1 * r.val = r.val; omega
    | ⟨1, _⟩ => show 0 + 1 * q.val = q.val; omega)
theorem embK (r q : Fin 512) : (r0_3 : Rect S512x1536).emb (ix2 r q) = ix2 r ⟨512 + q.val, by omega⟩ :=
  funext fun a => Fin.ext (by
    match a with
    | ⟨0, _⟩ => show 0 + 1 * r.val = r.val; omega
    | ⟨1, _⟩ => show 512 + 1 * q.val = 512 + q.val; omega)
theorem embV (r q : Fin 512) : (r0_4 : Rect S512x1536).emb (ix2 r q) = ix2 r ⟨1024 + q.val, by omega⟩ :=
  funext fun a => Fin.ext (by
    match a with
    | ⟨0, _⟩ => show 0 + 1 * r.val = r.val; omega
    | ⟨1, _⟩ => show 1024 + 1 * q.val = 1024 + q.val; omega)

/-- The body's three stores leave one block of the result: each store's payload is the part of `blockG` its
    rectangle names, and the three rectangles cover the buffer. -/
theorem out_block (x : Vec Ideal S512x512 .bf16) (w : Vec Ideal S512x1536 .bf16) :
    out0_2 (F := Ideal) x w = blockG x w := by
  funext y
  unfold out0_2
  simp only [View.ld_unit_zero (S := S512x512) hz, View.ld_unit_zero (S := S512x1536) hz]
  refine View.canon_apply_of_pieces (blockG x w) _ ?_ y (cover0_2 _ _ _ y)
  intro p hp
  simp only [List.mem_cons, List.not_mem_nil, or_false] at hp
  rcases hp with rfl | rfl | rfl
  · intro xx
    obtain ⟨r, q, rfl⟩ : ∃ (r q : Fin 512), xx = ix2 r q := ⟨xx 0, xx 1, eq_ix2 xx⟩
    show k0_pay4 (F := Ideal) x w (ix2 r q) = blockG x w ((r0_4 : Rect S512x1536).emb (ix2 r q))
    rw [embV]; exact payV_apply x w r q
  · intro xx
    obtain ⟨r, q, rfl⟩ : ∃ (r q : Fin 512), xx = ix2 r q := ⟨xx 0, xx 1, eq_ix2 xx⟩
    show k0_pay3 (F := Ideal) x w (ix2 r q) = blockG x w ((r0_3 : Rect S512x1536).emb (ix2 r q))
    rw [embK]; exact payK_apply x w r q
  · intro xx
    obtain ⟨r, q, rfl⟩ : ∃ (r q : Fin 512), xx = ix2 r q := ⟨xx 0, xx 1, eq_ix2 xx⟩
    show k0_pay2 (F := Ideal) x w (ix2 r q) = blockG x w ((r0_2 : Rect S512x1536).emb (ix2 r q))
    rw [embQ]; exact payQ_apply x w r q

/-- A block of the result against the whole result: when the block of `x` holds row `i` of the argument in its
    row `r` and the weights are the argument's, entry (r, n) of the block is entry (i, n) of the whole. -/
theorem block_read (A0 : S4096x512.Idx → EReal) (A1 : S512x1536.Idx → EReal)
    (x : Vec Ideal S512x512 .bf16) (w : Vec Ideal S512x1536 .bf16) (r : Fin 512) (n : Fin 1536) (i : Fin 4096)
    (hx : ∀ k : Fin 512, x (ix2 r k) = A0 (ix2 i k))
    (hw : ∀ k : Fin 512, w (ix2 k n) = A1 (ix2 k n)) :
    blockG x w (ix2 r n) = ofMat (qkvK (proj (toMat A0) (toMat A1))) (ix2 i n) := by
  show act n (∑ k : Fin 512, x (ix2 r k) * w (ix2 k n)) = act n (∑ k : Fin 512, A0 (ix2 i k) * A1 (ix2 k n))
  exact congrArg (act n) (Finset.sum_congr rfl fun k _ => by rw [hx k, hw k])

/-! ## From the blocks to the array -/

variable (m : (ℓ : Loc nD τ sig) → Buf (Elt Ideal) ℓ) (ρ : Dev nD → PrngReg)

/-- The first call finds `x` where the conversion before it left it, and over the extended reals the conversion
    changes nothing. -/
theorem entry_x (c : Dev nD) :
    (V1 m ρ c main_v0 : S4096x512.Idx → EReal) = (m ((c : Thread nD τ).loc main_arg0) : S4096x512.Idx → EReal) := by
  show StableHlo.after hostOps0 _ (Proc.devRef .tc main_v0) = _
  after_results
  rfl

/-- The same for the weights. -/
theorem entry_w (c : Dev nD) :
    (V1 m ρ c main_v1 : S512x1536.Idx → EReal) = (m ((c : Thread nD τ).loc main_arg1) : S512x1536.Idx → EReal) := by
  show StableHlo.after hostOps0 _ (Proc.devRef .tc main_v1) = _
  after_results
  rfl

/-- The block indices over the grid of 8 points: point `t` takes block of rows `t` of `x` and of the result, all of
    the weights, and every block starts at column 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The result array as one function of the two arguments. -/
abbrev G (c : Dev nD) : S4096x1536.Idx → EReal :=
  ofMat (qkvK (proj (toMat (m ((c : Thread nD τ).loc main_arg0))) (toMat (m ((c : Thread nD τ).loc main_arg1)))))

/-- What point `t` writes back is block `t` (rows 512 t ‥ 512 t + 511) of the result. -/
theorem flushed_eq (c : Dev nD) (t : Fin cfg0.N) :
    (dat0 (V1 m ρ) c).flushed 2 t = ((cfg0.win 2).blk t).view.read (Elt Ideal) (G m c) := by
  show (cfg0.win 2).cut (grid0.coords t) ((dat0 (V1 m ρ) c).after 2 t) = _
  rw [after0_2]
  obtain ⟨e00, e01, e10, e11, e20, e21⟩ := idx_facts t
  have ht : t.val < 8 := t.isLt
  funext j
  have hj0 : (j 0).val < 512 := (j 0).isLt
  have hj1 : (j 1).val < 1536 := (j 1).isLt
  have hxi : (cfg0.win 2).xinj (grid0.coords t) j = ix2 (⟨(j 0).val, hj0⟩ : Fin 512) (⟨(j 1).val, hj1⟩ : Fin 1536) :=
    funext fun a => Fin.ext (by
      match a with
      | ⟨0, _⟩ => rfl
      | ⟨1, _⟩ => rfl)
  have hemb : ((cfg0.win 2).blk t).view.emb j = ix2 (⟨t.val * 512 + (j 0).val, by omega⟩ : Fin 4096) (⟨(j 1).val, hj1⟩ : Fin 1536) :=
    funext fun a => Fin.ext (by
      match a with
      | ⟨0, _⟩ => show win0_2.index t (0 : Fin 2) * 512 + 1 * (j 0).val = t.val * 512 + (j 0).val; omega
      | ⟨1, _⟩ => show win0_2.index t (1 : Fin 2) * 1536 + 1 * (j 1).val = (j 1).val; omega)
  show out0_2 (iblk0 (V1 m ρ) c 0 t) (iblk0 (V1 m ρ) c 1 t) ((cfg0.win 2).xinj (grid0.coords t) j)
      = G m c (((cfg0.win 2).blk t).view.emb j)
  rw [hxi, hemb]
  refine (congrFun (out_block _ _) _).trans ?_
  refine block_read _ _ _ _ _ _ _ ?_ ?_
  · intro k
    show V1 m ρ c main_v0 (((cfg0.win 0).blk t).view.emb (ix2 (⟨(j 0).val, hj0⟩ : Fin 512) k)) = _
    rw [entry_x]
    refine congrArg _ (funext fun a => Fin.ext ?_)
    match a with
    | ⟨0, _⟩ => show win0_0.index t (0 : Fin 2) * 512 + 1 * (j 0).val = t.val * 512 + (j 0).val; omega
    | ⟨1, _⟩ => show win0_0.index t (1 : Fin 2) * 512 + 1 * k.val = k.val; omega
  · intro k
    show V1 m ρ c main_v1 (((cfg0.win 1).blk t).view.emb (ix2 k (⟨(j 1).val, hj1⟩ : Fin 1536))) = _
    rw [entry_w]
    refine congrArg _ (funext fun a => Fin.ext ?_)
    match a with
    | ⟨0, _⟩ => show win0_1.index t (0 : Fin 2) * 512 + 1 * k.val = k.val; omega
    | ⟨1, _⟩ => show win0_1.index t (1 : Fin 2) * 1536 + 1 * (j 1).val = (j 1).val; omega

/-- An index of the array is in point `t`'s block iff each coordinate is in the block's range on its axis. -/
theorem mem_blk (t : Fin cfg0.N) (i : S4096x1536.Idx) :
    i ∈ ((cfg0.win 2).blk t).view.set ↔ ∀ a : Fin 2, win0_2.index t a * S512x1536.size a ≤ (i a).val ∧ (i a).val < win0_2.index t a * S512x1536.size a + S512x1536.size a := by
  show i ∈ ((View.whole main_v3).slice (win0_2.rect t)).set ↔ _
  rw [View.set_slice_whole, Rect.mem_set_unit]
  exact Iff.rfl

/-- Every entry of the array is in some point's block: row `i` is in the block of point `i / 512`. -/
theorem cover (i : S4096x1536.Idx) :
    ∃ t : Fin cfg0.N, (cfg0.win 2).flush t = true ∧ i ∈ ((cfg0.win 2).blk t).view.set := by
  have hi0 : (i 0).val < 4096 := (i 0).isLt
  have hi1 : (i 1).val < 1536 := (i 1).isLt
  refine ⟨⟨(i 0).val / 512, by show (i 0).val / 512 < 8; omega⟩, flush0_2 _, ?_⟩
  rw [mem_blk]
  obtain ⟨-, -, -, -, e20, e21⟩ := idx_facts ⟨(i 0).val / 512, by show (i 0).val / 512 < 8; omega⟩
  have e20' : win0_2.index ⟨(i 0).val / 512, by show (i 0).val / 512 < 8; omega⟩ (0 : Fin 2) = (i 0).val / 512 := e20
  intro a
  match a with
  | ⟨0, _⟩ =>
    show win0_2.index _ (0 : Fin 2) * 512 ≤ (i 0).val ∧ (i 0).val < win0_2.index _ (0 : Fin 2) * 512 + 512
    rw [e20']; omega
  | ⟨1, _⟩ =>
    show win0_2.index _ (1 : Fin 2) * 1536 ≤ (i 1).val ∧ (i 1).val < win0_2.index _ (1 : Fin 2) * 1536 + 1536
    rw [e21]; omega

/-- After the first call its output array is `qkvK` of the projection of the two arguments. -/
theorem region0_final (c : Dev nD) :
    (dat0 (V1 m ρ) c).arrAt 2 cfg0.N
      = ofMat (qkvK (proj (toMat (m ((c : Thread nD τ).loc main_arg0))) (toMat (m ((c : Thread nD τ).loc main_arg1))))) :=
  (dat0 (V1 m ρ) c).arrAt_eq_of_cover 2 (G m c) (fun t _ => flushed_eq m ρ c t) cover

end Cert.KernelIdeal.Reg0

end
-- ==== Proof.HeadOut.lean ====
/-
  One head of the second call, read at an entry.

  The head's term is a chain of whole-array operations: the score product `q · kᵀ`, the row maximum kept as a column and
  spread back over the row, the exponential of the difference, the row sum kept as a column and spread over the 32 lanes,
  the product of the weights with the values, and one division. Each is read here at one entry `(r, d)`: the two products
  as sums over their one contracted coordinate, the two row reductions as the fold of `max` and the sum over the row's
  4096 entries, the keepdims column forms through their row-major positions, and the pointwise operations as the
  extended reals' own (the format changes are the identity there).
-/
import proofs.«422940_j34505767256281_3_alg».proof.Proof.Gen.KernelIdeal.Skeleton
import proofs.«422940_j34505767256281_3_alg».proof.Proof.Spec
import Idealize.ShloMosaic.Lib.Pipeline.Value
import Idealize.ShloMosaic.Lib.ValueIdx
import Idealize.ShloMosaic.PureOps.Ideal.Laws

noncomputable section

namespace Cert.KernelIdeal.Head

open Cert.KernelIdeal Cert.KernelIdeal.Gen
open Idealize.ShloMosaic Idealize.ShloMosaic.TcCoe Idealize.ShloMosaic.Tactic Idealize.ShloMosaic.ValueIdx
open Idealize.SL Idealize.SL.Sem
open Cert.Attn
open scoped BigOperators

/-! ## The keepdims column forms read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The row reductions -/

/-- The source index over row `r` with lane `j` inserted is `(r, j)`. -/
theorem lift_row (h : S256x4096.Reduces [1] S256) (r : Fin 256) (j : Fin 4096) :
    h.lift (ix1 r) j = ix2 r j := by
  funext c
  refine Fin.ext ?_
  match c with
  | ⟨0, _⟩ => rfl
  | ⟨1, _⟩ => rfl

/-- A row's maximum as the kernel takes it: the fold of `max` from `-∞` over the row. -/
theorem rowMax_apply (s : FVec Ideal S256x4096 .f32) (h : S256x4096.Reduces [1] S256) (r : Fin 256) :
    multiReduction (F := Ideal) .maximumf [1] S256 s 0xFF800000#32 h (.inl rfl) rfl (ix1 r)
      = rowMax (fun j => s (ix2 r j)) := by
  refine (Ideal.multiReduction_maximumf_single s 0xFF800000#32 h (.inl rfl) rfl (ix1 r)).trans ?_
  unfold rowMax ninf
  refine congrArg (fun f : Fin 4096 → EReal => (Finset.univ : Finset (Fin 4096)).fold max (Ideal.ofBits .f32 0xFF800000#32) f) ?_
  funext j
  exact congrArg s (lift_row h r j)

/-- A row's sum as the kernel takes it. -/
theorem rowSum_apply (e : FVec Ideal S256x4096 .f32) (h : S256x4096.Reduces [1] S256) (r : Fin 256) :
    multiReduction (F := Ideal) .add [1] S256 e 0x00000000#32 h (.inl rfl) rfl (ix1 r)
      = ∑ j : Fin 4096, e (ix2 r j) := by
  refine (Ideal.multiReduction_add_single e 0x00000000#32 h (.inl rfl) rfl (ix1 r)).trans ?_
  exact Finset.sum_congr rfl fun j _ => congrArg e (lift_row h r j)

/-! ## The two products read at an entry -/

/-- The score product `q · kᵀ` contracts lane against lane: its operand indices, axis by axis. -/
theorem qk_lhs_0 (i : S256x4096.Idx) (c : dot_S256x32_S4096x32_S256x4096_1_1_0_0_n_n.contr.Idx) :
    (dot_S256x32_S4096x32_S256x4096_1_1_0_0_n_n.lhsIdx i c 0).val = (i 0).val := by
  unfold DotDims.lhsIdx
  rw [dif_neg (show ¬(0 : Fin S256x32.rank) ∈ dot_S256x32_S4096x32_S256x4096_1_1_0_0_n_n.lhsBatch by decide), dif_pos (show (0 : Fin S256x32.rank) ∈ dot_S256x32_S4096x32_S256x4096_1_1_0_0_n_n.lhsNonContracting by decide)]
  rfl
theorem qk_lhs_1 (i : S256x4096.Idx) (c : dot_S256x32_S4096x32_S256x4096_1_1_0_0_n_n.contr.Idx) :
    (dot_S256x32_S4096x32_S256x4096_1_1_0_0_n_n.lhsIdx i c 1).val = (c ⟨0, by decide⟩).val :=
  dot_S256x32_S4096x32_S256x4096_1_1_0_0_n_n.lhsIdx_val_of_single rfl i c
theorem qk_rhs_0 (i : S256x4096.Idx) (c : dot_S256x32_S4096x32_S256x4096_1_1_0_0_n_n.contr.Idx) :
    (dot_S256x32_S4096x32_S256x4096_1_1_0_0_n_n.rhsIdx i c 0).val = (i 1).val := by
  unfold DotDims.rhsIdx
  rw [dif_neg (show ¬(0 : Fin S4096x32.rank) ∈ dot_S256x32_S4096x32_S256x4096_1_1_0_0_n_n.rhsBatch by decide), dif_pos (show (0 : Fin S4096x32.rank) ∈ dot_S256x32_S4096x32_S256x4096_1_1_0_0_n_n.rhsNonContracting by decide)]
  rfl
theorem qk_rhs_1 (i : S256x4096.Idx) (c : dot_S256x32_S4096x32_S256x4096_1_1_0_0_n_n.contr.Idx) :
    (dot_S256x32_S4096x32_S256x4096_1_1_0_0_n_n.rhsIdx i c 1).val = (c ⟨0, by decide⟩).val :=
  dot_S256x32_S4096x32_S256x4096_1_1_0_0_n_n.rhsIdx_val_of_single rfl i c

/-- The score of query row `r` against key row `j`: the sum over the 32 lanes of the products. -/
theorem score_apply (q : FVec Ideal S256x32 .bf16) (k : FVec Ideal S4096x32 .bf16) (r : Fin 256) (j : Fin 4096) :
    matmul (F := Ideal) dot_S256x32_S4096x32_S256x4096_1_1_0_0_n_n none q k (constant (F := Ideal) S256x4096 .f32 0x00000000#32) (ix2 r j)
      = ∑ d' : Fin 32, q (ix2 r d') * k (ix2 j d') := by
  refine (Ideal.matmul_constant_zero_apply dot_S256x32_S4096x32_S256x4096_1_1_0_0_n_n none q k (ix2 r j)).trans ?_
  rw [← Equiv.sum_comp (contrEquiv1 dot_S256x32_S4096x32_S256x4096_1_1_0_0_n_n 32 rfl rfl).symm]
  refine Finset.sum_congr rfl fun d' _ => ?_
  have hk := contrEquiv1_symm_val dot_S256x32_S4096x32_S256x4096_1_1_0_0_n_n 32 rfl rfl d'
  have el : dot_S256x32_S4096x32_S256x4096_1_1_0_0_n_n.lhsIdx (ix2 r j) ((contrEquiv1 dot_S256x32_S4096x32_S256x4096_1_1_0_0_n_n 32 rfl rfl).symm d') = ix2 r d' := funext fun a => Fin.ext (by
    match a with
    | ⟨0, _⟩ => exact qk_lhs_0 _ _
    | ⟨1, _⟩ => exact (qk_lhs_1 _ _).trans hk)
  have er : dot_S256x32_S4096x32_S256x4096_1_1_0_0_n_n.rhsIdx (ix2 r j) ((contrEquiv1 dot_S256x32_S4096x32_S256x4096_1_1_0_0_n_n 32 rfl rfl).symm d') = ix2 j d' := funext fun a => Fin.ext (by
    match a with
    | ⟨0, _⟩ => exact qk_rhs_0 _ _
    | ⟨1, _⟩ => exact (qk_rhs_1 _ _).trans hk)
  rw [el, er]

/-- The weighted-value product `p · v` contracts the key axis: its operand indices, axis by axis. -/
theorem pv_lhs_0 (i : S256x32.Idx) (c : dot_S256x4096_S4096x32_S256x32_1_0_0_1_n_n.contr.Idx) :
    (dot_S256x4096_S4096x32_S256x32_1_0_0_1_n_n.lhsIdx i c 0).val = (i 0).val := by
  unfold DotDims.lhsIdx
  rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
  rfl
theorem pv_lhs_1 (i : S256x32.Idx) (c : dot_S256x4096_S4096x32_S256x32_1_0_0_1_n_n.contr.Idx) :
    (dot_S256x4096_S4096x32_S256x32_1_0_0_1_n_n.lhsIdx i c 1).val = (c ⟨0, by decide⟩).val :=
  dot_S256x4096_S4096x32_S256x32_1_0_0_1_n_n.lhsIdx_val_of_single rfl i c
theorem pv_rhs_0 (i : S256x32.Idx) (c : dot_S256x4096_S4096x32_S256x32_1_0_0_1_n_n.contr.Idx) :
    (dot_S256x4096_S4096x32_S256x32_1_0_0_1_n_n.rhsIdx i c 0).val = (c ⟨0, by decide⟩).val :=
  dot_S256x4096_S4096x32_S256x32_1_0_0_1_n_n.rhsIdx_val_of_single rfl i c
theorem pv_rhs_1 (i : S256x32.Idx) (c : dot_S256x4096_S4096x32_S256x32_1_0_0_1_n_n.contr.Idx) :
    (dot_S256x4096_S4096x32_S256x32_1_0_0_1_n_n.rhsIdx i c 1).val = (i 1).val := by
  unfold DotDims.rhsIdx
  rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
  rfl

/-- Row `r` of the weights against column `d` of the values: the sum over the 4096 keys of the products. -/
theorem pv_apply (p : FVec Ideal S256x4096 .bf16) (v : FVec Ideal S4096x32 .bf16) (r : Fin 256) (d : Fin 32) :
    matmul (F := Ideal) dot_S256x4096_S4096x32_S256x32_1_0_0_1_n_n none p v (constant (F := Ideal) S256x32 .f32 0x00000000#32) (ix2 r d)
      = ∑ j : Fin 4096, p (ix2 r j) * v (ix2 j d) := by
  refine (Ideal.matmul_constant_zero_apply dot_S256x4096_S4096x32_S256x32_1_0_0_1_n_n none p v (ix2 r d)).trans ?_
  rw [← Equiv.sum_comp (contrEquiv1 dot_S256x4096_S4096x32_S256x32_1_0_0_1_n_n 4096 rfl rfl).symm]
  refine Finset.sum_congr rfl fun j _ => ?_
  have hk := contrEquiv1_symm_val dot_S256x4096_S4096x32_S256x32_1_0_0_1_n_n 4096 rfl rfl j
  have el : dot_S256x4096_S4096x32_S256x32_1_0_0_1_n_n.lhsIdx (ix2 r d) ((contrEquiv1 dot_S256x4096_S4096x32_S256x32_1_0_0_1_n_n 4096 rfl rfl).symm j) = ix2 r j := funext fun a => Fin.ext (by
    match a with
    | ⟨0, _⟩ => exact pv_lhs_0 _ _
    | ⟨1, _⟩ => exact (pv_lhs_1 _ _).trans hk)
  have er : dot_S256x4096_S4096x32_S256x32_1_0_0_1_n_n.rhsIdx (ix2 r d) ((contrEquiv1 dot_S256x4096_S4096x32_S256x32_1_0_0_1_n_n 4096 rfl rfl).symm j) = ix2 j d := funext fun a => Fin.ext (by
    match a with
    | ⟨0, _⟩ => exact (pv_rhs_0 _ _).trans hk
    | ⟨1, _⟩ => exact pv_rhs_1 _ _)
  rw [el, er]

/-! ## The head at an entry -/

/-- The exponential of a difference at an index. -/
theorem exp_subf_apply (s b : FVec Ideal S256x4096 .f32) (i : S256x4096.Idx) :
    exp (subf s b) i = Ideal.exp (s i - b i) := rfl

/-- A weight of row `r`: the exponential of the score less the row's maximum. -/
theorem weight_apply (s : FVec Ideal S256x4096 .f32) (hr : S256x4096.Reduces [1] S256) (hc : S256.ShapeCasts S256x1)
    (hb : S256x1.Broadcasts S256x4096) (r : Fin 256) (j : Fin 4096) :
    exp (subf s (broadcastTo S256x4096 (shapeCast S256x1
        (multiReduction (F := Ideal) .maximumf [1] S256 s 0xFF800000#32 hr (.inl rfl) rfl) hc) hb)) (ix2 r j)
      = Ideal.exp (s (ix2 r j) - rowMax (fun j' => s (ix2 r j'))) := by
  refine (exp_subf_apply s _ (ix2 r j)).trans ?_
  refine congrArg (fun m => Ideal.exp (s (ix2 r j) - m)) ?_
  refine (broadcastTo_a1_ab_apply _ hb r j).trans ?_
  refine (shapeCast_a_a1_apply _ hc r 0).trans ?_
  exact rowMax_apply s hr r

/-- From the weights `e` to the output entry: the weighted sum of the value column, divided once by the row's sum of weights. -/
theorem out_of_weights (e : FVec Ideal S256x4096 .f32) (v : FVec Ideal S4096x32 .bf16)
    (hr : S256x4096.Reduces [1] S256) (hc : S256.ShapeCasts S256x1) (hb : S256x1.Broadcasts S256x32)
    (hlt : FTy.bits .bf16 < FTy.bits .f32) (r : Fin 256) (d : Fin 32) :
    truncf .bf16 (divf
        (matmul (F := Ideal) dot_S256x4096_S4096x32_S256x32_1_0_0_1_n_n none (truncf .bf16 e hlt) v (constant (F := Ideal) S256x32 .f32 0x00000000#32))
        (broadcastTo S256x32 (shapeCast S256x1
          (multiReduction (F := Ideal) .add [1] S256 e 0x00000000#32 hr (.inl rfl) rfl) hc) hb)) hlt (ix2 r d)
      = Ideal.div (∑ j : Fin 4096, e (ix2 r j) * v (ix2 j d)) (∑ j : Fin 4096, e (ix2 r j)) := by
  refine (truncf_apply _ hlt (ix2 r d)).trans ?_
  refine (divf_apply _ _ (ix2 r d)).trans ?_
  refine congrArg₂ Ideal.div ?_ ?_
  · refine (pv_apply (truncf .bf16 e hlt) v r d).trans ?_
    exact Finset.sum_congr rfl fun j _ => congrArg (· * v (ix2 j d)) (truncf_apply e hlt (ix2 r j))
  · refine (broadcastTo_a1_ab_apply _ hb r d).trans ?_
    refine (shapeCast_a_a1_apply _ hc r 0).trans ?_
    exact rowSum_apply e hr r

/-- From the scores `s` to the output entry. -/
theorem out_of_scores (s : FVec Ideal S256x4096 .f32) (v : FVec Ideal S4096x32 .bf16)
    (hr : S256x4096.Reduces [1] S256) (hc : S256.ShapeCasts S256x1) (hb : S256x1.Broadcasts S256x4096) (hb' : S256x1.Broadcasts S256x32)
    (hlt : FTy.bits .bf16 < FTy.bits .f32) (r : Fin 256) (d : Fin 32) :
    truncf .bf16 (divf
        (matmul (F := Ideal) dot_S256x4096_S4096x32_S256x32_1_0_0_1_n_n none
          (truncf .bf16 (exp (subf s (broadcastTo S256x4096 (shapeCast S256x1
            (multiReduction (F := Ideal) .maximumf [1] S256 s 0xFF800000#32 hr (.inl rfl) rfl) hc) hb))) hlt)
          v (constant (F := Ideal) S256x32 .f32 0x00000000#32))
        (broadcastTo S256x32 (shapeCast S256x1
          (multiReduction (F := Ideal) .add [1] S256
            (exp (subf s (broadcastTo S256x4096 (shapeCast S256x1
              (multiReduction (F := Ideal) .maximumf [1] S256 s 0xFF800000#32 hr (.inl rfl) rfl) hc) hb)))
            0x00000000#32 hr (.inl rfl) rfl) hc) hb')) hlt (ix2 r d)
      = attnK (fun j => s (ix2 r j)) (fun j => v (ix2 j d)) := by
  refine (out_of_weights _ v hr hc hb' hlt r d).trans ?_
  unfold attnK
  refine congrArg₂ Ideal.div (Finset.sum_congr rfl fun j _ => ?_) (Finset.sum_congr rfl fun j _ => ?_)
  · exact congrArg (· * v (ix2 j d)) (weight_apply s hr hc hb r j)
  · exact weight_apply s hr hc hb r j

/-- The body's per-head term (the first head's payload; every head's stored value is this term of its own three loads)
    at row `r`, lane `d`: the head's weighted value sum divided by the sum of the weights. -/
theorem k1_pay3_apply (q : FVec Ideal S256x32 .bf16) (k v : FVec Ideal S4096x32 .bf16) (r : Fin 256) (d : Fin 32) :
    k1_pay3 (F := Ideal) q k v (ix2 r d)
      = attnK (fun j => ∑ d' : Fin 32, q (ix2 r d') * k (ix2 j d')) (fun j => v (ix2 j d)) := by
  unfold k1_pay3
  simp only [shapeCast_self]
  refine (out_of_scores _ v _ _ _ _ _ r d).trans ?_
  exact congrArg (fun f => attnK f (fun j => v (ix2 j d))) (funext fun j => score_apply q k r j)

end Cert.KernelIdeal.Head

end
-- ==== Proof.Region1Body.lean ====
/-
  What one grid point of the second call leaves in its output block, entry by entry.

  The body computes sixteen heads one after the other: head `h` loads columns `32h ‥ 32h+31` of the query tile, of the
  keys and of the values, forms its term of them, and stores it into columns `32h ‥ 32h+31` of a 256 × 512 scratch
  block. It then reads the whole scratch block back, multiplies it by the 512 × 512 output weights and adds the bias
  row. So the block it leaves is, at row `r` and column `n`, the sum over the 512 scratch columns `cc` of the term of
  the head that owns `cc` (at row `r`, lane `cc mod 32`) times the weight at `(cc, n)`, plus the bias at `n`.

  The steps: the product and the bias at an entry; every head's stored value is the same function of its three loads;
  the sixteen stores are the sixteen column blocks of ONE function of the scratch index, so the read-back is that
  function; a head's term at an entry is the weighted value sum over the sum of the weights (the sibling module).
-/
import proofs.«422940_j34505767256281_3_alg».proof.Proof.Gen.KernelIdeal.Frame
import proofs.«422940_j34505767256281_3_alg».proof.Proof.HeadOut
import Idealize.ShloMosaic.Lib.ValueLayout
import Idealize.ShloMosaic.Lib.Pipeline.Value

set_option maxRecDepth 16384
noncomputable section

namespace Cert.KernelIdeal.Body1

open Cert.KernelIdeal Cert.KernelIdeal.Gen Cert.KernelIdeal.Head
open Idealize.ShloMosaic Idealize.ShloMosaic.TcCoe Idealize.ShloMosaic.Tactic Idealize.ShloMosaic.ValueIdx
open Idealize.SL Idealize.SL.Sem
open Cert.Attn
open scoped BigOperators

/-! ## The output projection and the bias at an entry

The product contracts axis 1 of its left operand with axis 0 of its right operand: at output index `(r, n)` and
contraction coordinate `k` it reads the left operand at `(r, k)` and the right operand at `(k, n)`. -/

theorem projL_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem projL_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem projR_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem projR_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The product of a 256 × 512 block with a 512 × 512 matrix into a zero accumulator, at row `r`, column `n`:
    the sum over the 512 contracted columns. -/
theorem proj_apply (x : FVec Ideal S256x512 .bf16) (w : FVec Ideal S512x512 .bf16) (r : Fin 256) (n : Fin 512) :
    matmul dot_S256x512_S512x512_S256x512_1_0_0_1_n_n none x w (constant (F := Ideal) S256x512 .f32 0x00000000#32) (ix2 r n)
      = ∑ cc : Fin 512, x (ix2 r cc) * w (ix2 cc n) := by
  show FloatOps.matmul dot_S256x512_S512x512_S256x512_1_0_0_1_n_n none x w (constant (F := Ideal) S256x512 .f32 0x00000000#32) (ix2 r n) = _
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 r n) ((contrEquiv1 dot_S256x512_S512x512_S256x512_1_0_0_1_n_n 512 rfl rfl).symm k) = ix2 r k := funext fun a => Fin.ext (by
    match a with
    | ⟨0, _⟩ => exact projL_0 _ _
    | ⟨1, _⟩ => exact (projL_1 _ _).trans hk)
  have er : dot_S256x512_S512x512_S256x512_1_0_0_1_n_n.rhsIdx (ix2 r n) ((contrEquiv1 dot_S256x512_S512x512_S256x512_1_0_0_1_n_n 512 rfl rfl).symm k) = ix2 k n := funext fun a => Fin.ext (by
    match a with
    | ⟨0, _⟩ => exact (projR_0 _ _).trans hk
    | ⟨1, _⟩ => exact projR_1 _ _)
  rw [el, er]

/-- The last payload at row `r`, column `n`: the block times the output weights, plus the bias of the column. -/
theorem pay2_apply (x : FVec Ideal S256x512 .bf16) (w : FVec Ideal S512x512 .bf16) (b : FVec Ideal S1x512 .f32) (r : Fin 256) (n : Fin 512) :
    k1_pay2 (F := Ideal) x w b (ix2 r n) = (∑ cc : Fin 512, x (ix2 r cc) * w (ix2 cc n)) + b (ix2 0 n) := by
  unfold k1_pay2
  refine (addf_apply _ _ _).trans ?_
  refine congrArg₂ (· + ·) ?_ ?_
  · refine (proj_apply x _ r n).trans ?_
    exact Finset.sum_congr rfl fun cc _ => congrArg (x (ix2 r cc) * ·) (congrFun (shapeCast_self w _) _)
  · exact (broadcastTo_1b_ab_apply _ _ r n).trans (congrFun (shapeCast_self b _) _)

/-! ## Every head stores the same term of its own three loads

The generated skeleton names a head's stored value either as one term of the head's three loads or as a composition
of several shorter terms (the exponentials, their row sums, the value block); composed, each is the first head's term
of its own loads: the same operations in the same order. -/

section Heads
variable {F : FTy → Type} [FloatOps F]

theorem head1_eq (q : Vec F S256x32 .bf16) (k v : Vec F S4096x32 .bf16) :
    k1_pay8 (k1_pay4 v) (k1_pay6 q k) (k1_pay7 q k) = k1_pay3 q k v := rfl
theorem head2_eq (q : Vec F S256x32 .bf16) (k v : Vec F S4096x32 .bf16) :
    k1_pay9 q k v = k1_pay3 q k v := rfl
theorem head3_eq (q : Vec F S256x32 .bf16) (k v : Vec F S4096x32 .bf16) :
    k1_pay12 (k1_pay10 v) (k1_pay11 q k) = k1_pay3 q k v := rfl
theorem head4_eq (q : Vec F S256x32 .bf16) (k v : Vec F S4096x32 .bf16) :
    k1_pay13 q k v = k1_pay3 q k v := rfl
theorem head5_eq (q : Vec F S256x32 .bf16) (k v : Vec F S4096x32 .bf16) :
    k1_pay15 (k1_pay14 q) k v = k1_pay3 q k v := rfl
theorem head6_eq (q : Vec F S256x32 .bf16) (k v : Vec F S4096x32 .bf16) :
    k1_pay17 (k1_pay16 q k v) = k1_pay3 q k v := rfl
theorem head7_eq (q : Vec F S256x32 .bf16) (k v : Vec F S4096x32 .bf16) :
    k1_pay18 q k v = k1_pay3 q k v := rfl
theorem head8_eq (q : Vec F S256x32 .bf16) (k v : Vec F S4096x32 .bf16) :
    k1_pay21 (k1_pay19 v) (k1_pay20 q k) = k1_pay3 q k v := rfl
theorem head9_eq (q : Vec F S256x32 .bf16) (k v : Vec F S4096x32 .bf16) :
    k1_pay22 q k v = k1_pay3 q k v := rfl
theorem head10_eq (q : Vec F S256x32 .bf16) (k v : Vec F S4096x32 .bf16) :
    k1_pay25 (k1_pay23 q) (k1_pay24 k) v = k1_pay3 q k v := rfl
theorem head11_eq (q : Vec F S256x32 .bf16) (k v : Vec F S4096x32 .bf16) :
    k1_pay26 q k v = k1_pay3 q k v := rfl
theorem head12_eq (q : Vec F S256x32 .bf16) (k v : Vec F S4096x32 .bf16) :
    k1_pay27 q k v = k1_pay3 q k v := rfl
theorem head13_eq (q : Vec F S256x32 .bf16) (k v : Vec F S4096x32 .bf16) :
    k1_pay32 (k1_pay28 v) (k1_pay30 q k) (k1_pay31 q k) = k1_pay3 q k v := rfl
theorem head14_eq (q : Vec F S256x32 .bf16) (k v : Vec F S4096x32 .bf16) :
    k1_pay33 q k v = k1_pay3 q k v := rfl
theorem head15_eq (q : Vec F S256x32 .bf16) (k v : Vec F S4096x32 .bf16) :
    k1_pay1 (k1_pay34 v) (k1_pay35 q k) = k1_pay3 q k v := rfl

end Heads

/-! ## The scratch block read back as one function of its index -/

/-- The 32 columns of head `h` of an array of 512 columns. -/
def colBlock {a : Nat} {α : Type} (X : (⟨2, ![a, 512]⟩ : Shape).Idx → α) (h : Fin 16) : (⟨2, ![a, 32]⟩ : Shape).Idx → α :=
  fun y => X (ix2 (y 0) (hcol h (y 1)))

theorem colBlock_apply {a : Nat} {α : Type} (X : (⟨2, ![a, 512]⟩ : Shape).Idx → α) (h : Fin 16) (j : Fin a) (d : Fin 32) :
    colBlock X h (ix2 j d) = X (ix2 j (hcol h d)) := rfl

/-- A load of 32 columns from column `32 h` on reads the column block of head `h`. -/
theorem ld_colBlock {a : Nat} {Val : EltTy → Type} {e : EltTy} (X : (⟨2, ![a, 512]⟩ : Shape).Idx → Val e) (h : Fin 16)
    (inb : ∀ ax, (![0, 32 * h.val] : Fin 2 → Nat) ax + (⟨2, ![a, 32]⟩ : Shape).size ax ≤ (⟨2, ![a, 512]⟩ : Shape).size ax) :
    View.ld X (Rect.unit (s := ⟨2, ![a, 512]⟩) ![0, 32 * h.val] (⟨2, ![a, 32]⟩ : Shape).size inb) = colBlock X h := by
  funext y
  refine congrArg X (funext fun ax => Fin.ext ?_)
  match ax with
  | ⟨0, _⟩ => show 0 + 1 * (y 0).val = (y 0).val; omega
  | ⟨1, _⟩ => show 32 * h.val + 1 * (y 1).val = 32 * h.val + (y 1).val; omega

/-- What the scratch block holds at row `y 0`, column `y 1`: the head term of the head that owns the column, of that
    head's column blocks of the three inputs, at the column's lane. -/
def scratchG (x0 : Vec Ideal S256x512 .bf16) (x1 x2 : Vec Ideal S4096x512 .bf16) : Vec Ideal S256x512 .bf16 := fun y =>
  k1_pay3 (F := Ideal) (colBlock x0 (headOf (y 1))) (colBlock x1 (headOf (y 1))) (colBlock x2 (headOf (y 1))) (ix2 (y 0) (laneOf (y 1)))

/-- The store of head `h` (32 columns from column `c = 32 h` on, the head term of the three loads of those columns)
    is the block of `scratchG` its rectangle names. -/
theorem block_eq (x0 : Vec Ideal S256x512 .bf16) (x1 x2 : Vec Ideal S4096x512 .bf16) (h : Fin 16) (c : Nat) (hc : c = 32 * h.val)
    (i0 : ∀ a, (![0, c] : Fin 2 → Nat) a + S256x32.size a ≤ S256x512.size a)
    (i1 : ∀ a, (![0, c] : Fin 2 → Nat) a + S4096x32.size a ≤ S4096x512.size a)
    (i2 : ∀ a, (![0, c] : Fin 2 → Nat) a + S4096x32.size a ≤ S4096x512.size a)
    (i7 : ∀ a, (![0, c] : Fin 2 → Nat) a + S256x32.size a ≤ S256x512.size a)
    (x : (Rect.unit (s := S256x512) ![0, c] S256x32.size i7).shape.Idx) :
    k1_pay3 (F := Ideal) (View.ld x0 (Rect.unit (s := S256x512) ![0, c] S256x32.size i0))
        (View.ld x1 (Rect.unit (s := S4096x512) ![0, c] S4096x32.size i1))
        (View.ld x2 (Rect.unit (s := S4096x512) ![0, c] S4096x32.size i2)) x
      = scratchG x0 x1 x2 ((Rect.unit (s := S256x512) ![0, c] S256x32.size i7).emb x) := by
  subst hc
  have e0 : View.ld x0 (Rect.unit (s := S256x512) ![0, 32 * h.val] S256x32.size i0) = colBlock x0 h := ld_colBlock x0 h i0
  have e1 : View.ld x1 (Rect.unit (s := S4096x512) ![0, 32 * h.val] S4096x32.size i1) = colBlock x1 h := ld_colBlock x1 h i1
  have e2 : View.ld x2 (Rect.unit (s := S4096x512) ![0, 32 * h.val] S4096x32.size i2) = colBlock x2 h := ld_colBlock x2 h i2
  have hx0 : (x 0).val < 256 := (x 0).isLt
  have hx1 : (x 1).val < 32 := (x 1).isLt
  have hh : headOf ((Rect.unit (s := S256x512) ![0, 32 * h.val] S256x32.size i7).emb x 1) = h := by
    refine Fin.ext ?_
    show (32 * h.val + 1 * (x 1).val) / 32 = h.val
    omega
  have hx : (ix2 ((Rect.unit (s := S256x512) ![0, 32 * h.val] S256x32.size i7).emb x 0)
      (laneOf ((Rect.unit (s := S256x512) ![0, 32 * h.val] S256x32.size i7).emb x 1)) : S256x32.Idx) = x := by
    funext a
    match a with
    | ⟨0, _⟩ => exact Fin.ext (show 0 + 1 * (x 0).val = (x 0).val by omega)
    | ⟨1, _⟩ => exact Fin.ext (show (32 * h.val + 1 * (x 1).val) % 32 = (x 1).val by omega)
  unfold scratchG
  rw [e0, e1, e2, hh, hx]

/-- A load of the whole scratch block after stores that are all blocks of `scratchG` and cover the block reads
    `scratchG`. -/
theorem scratch_read {sig : RefSig} {κ : Kind} {sp : Space} (x0 : Vec Ideal S256x512 .bf16) (x1 x2 : Vec Ideal S4096x512 .bf16)
    (v : View sig κ sp S256x512 .bf16) (L : List (View.Piece (Elt Ideal) S256x512 .bf16))
    (inb : ∀ a, (![0, 0] : Fin 2 → Nat) a + S256x512.size a ≤ S256x512.size a)
    (hp : ∀ p ∈ L, ∀ x : p.1.shape.Idx, p.2 x = scratchG x0 x1 x2 (p.1.emb x))
    (hcov : ∀ y : S256x512.Idx, ∃ p ∈ L, y ∈ p.1.set) :
    v.readCov L (Rect.unit (s := S256x512) ![0, 0] S256x512.size inb).toLoadRect = scratchG x0 x1 x2 := by
  have hz : (![0, 0] : Fin 2 → Nat) = fun _ => 0 := funext fun a => by fin_cases a <;> rfl
  rw [View.readCov_eq_canon_ld _ _ _ hcov, View.ld_unit_zero (S := S256x512) hz]
  funext y
  exact View.canon_apply_of_pieces _ L hp y (hcov y)

/-- The scratch function at row `r`, column `cc`: the owning head's weighted value sum over the sum of the weights,
    with the head's score of row `r` against key row `j` summed over the head's 32 lanes. -/
theorem scratchG_apply (x0 : Vec Ideal S256x512 .bf16) (x1 x2 : Vec Ideal S4096x512 .bf16) (r : Fin 256) (cc : Fin 512) :
    scratchG x0 x1 x2 (ix2 r cc)
      = attnK (fun j => ∑ d : Fin 32, x0 (ix2 r (hcol (headOf cc) d)) * toMat x1 j (hcol (headOf cc) d)) (fun j => toMat x2 j cc) := by
  have hcc : hcol (headOf cc) (laneOf cc) = cc := Fin.ext (by show 32 * (cc.val / 32) + cc.val % 32 = cc.val; omega)
  show k1_pay3 (F := Ideal) (colBlock x0 (headOf cc)) (colBlock x1 (headOf cc)) (colBlock x2 (headOf cc)) (ix2 r (laneOf cc)) = _
  refine (k1_pay3_apply _ _ _ r (laneOf cc)).trans ?_
  show attnK (fun j => ∑ d' : Fin 32, x0 (ix2 r (hcol (headOf cc) d')) * x1 (ix2 j (hcol (headOf cc) d')))
      (fun j => x2 (ix2 j (hcol (headOf cc) (laneOf cc)))) = _
  rw [hcc]
  rfl

/-- The output block after the body, at row `r`, column `n`, from the contents of the five input blocks. -/
theorem body_value (c : Dev nD) (i : grid1.Coords) (arg1 : Memref sig .tc .vmem S256x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .bf16) (harg7 : arg7.IsWhole)
    (x0 : Vec Ideal S256x512 .bf16) (x1 : Vec Ideal S4096x512 .bf16) (x2 : Vec Ideal S4096x512 .bf16) (x3 : Vec Ideal S512x512 .bf16) (x4 : Vec Ideal S1x512 .f32) (r : Fin 256) (n : Fin 512) :
    out1_A_5 (F := Ideal) c i arg1 harg1 arg2 harg2 arg3 harg3 arg4 harg4 arg5 harg5 arg6 harg6 arg7 harg7 x0 x1 x2 x3 x4 (ix2 r n)
      = outRow (fun cc => x0 (ix2 r cc)) (toMat x1) (toMat x2) (toMat x3) (fun n => x4 (ix2 0 n)) n := by
  have hz : (![0, 0] : Fin 2 → Nat) = fun _ => 0 := funext fun a => by fin_cases a <;> rfl
  unfold out1_A_5
  rw [View.read_writes_eq_canon _ _ _ (cover1_A_5 c i arg1 harg1 arg2 harg2 arg3 harg3 arg4 harg4 arg5 harg5 arg6 harg6 arg7 harg7 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread,
    View.ld_unit_zero (S := S512x512) hz, View.ld_unit_zero (S := S1x512) hz,
    head1_eq, head2_eq, head3_eq, head4_eq, head5_eq, head6_eq, head7_eq, head8_eq, head9_eq, head10_eq, head11_eq, head12_eq,
    head13_eq, head14_eq, head15_eq]
  rw [scratch_read x0 x1 x2 arg7.view _ _ ?hp ?hcov]
  case hcov => exact View.cover_of_tiledL _ S256x32.size (by sl_kernel_rfl)
  case hp =>
    intro p hp
    simp only [List.mem_cons, List.not_mem_nil, or_false] at hp
    rcases hp with rfl | rfl | rfl | rfl | rfl | rfl | rfl | rfl | rfl | rfl | rfl | rfl | rfl | rfl | rfl | rfl
    · exact fun x => block_eq x0 x1 x2 15 480 rfl inb_S256x512_S256x32_0_480 inb_S4096x512_S4096x32_0_480 inb_S4096x512_S4096x32_0_480 inb_S256x512_S256x32_0_480 x
    · exact fun x => block_eq x0 x1 x2 14 448 rfl inb_S256x512_S256x32_0_448 inb_S4096x512_S4096x32_0_448 inb_S4096x512_S4096x32_0_448 inb_S256x512_S256x32_0_448 x
    · exact fun x => block_eq x0 x1 x2 13 416 rfl inb_S256x512_S256x32_0_416 inb_S4096x512_S4096x32_0_416 inb_S4096x512_S4096x32_0_416 inb_S256x512_S256x32_0_416 x
    · exact fun x => block_eq x0 x1 x2 12 384 rfl inb_S256x512_S256x32_0_384 inb_S4096x512_S4096x32_0_384 inb_S4096x512_S4096x32_0_384 inb_S256x512_S256x32_0_384 x
    · exact fun x => block_eq x0 x1 x2 11 352 rfl inb_S256x512_S256x32_0_352 inb_S4096x512_S4096x32_0_352 inb_S4096x512_S4096x32_0_352 inb_S256x512_S256x32_0_352 x
    · exact fun x => block_eq x0 x1 x2 10 320 rfl inb_S256x512_S256x32_0_320 inb_S4096x512_S4096x32_0_320 inb_S4096x512_S4096x32_0_320 inb_S256x512_S256x32_0_320 x
    · exact fun x => block_eq x0 x1 x2 9 288 rfl inb_S256x512_S256x32_0_288 inb_S4096x512_S4096x32_0_288 inb_S4096x512_S4096x32_0_288 inb_S256x512_S256x32_0_288 x
    · exact fun x => block_eq x0 x1 x2 8 256 rfl inb_S256x512_S256x32_0_256 inb_S4096x512_S4096x32_0_256 inb_S4096x512_S4096x32_0_256 inb_S256x512_S256x32_0_256 x
    · exact fun x => block_eq x0 x1 x2 7 224 rfl inb_S256x512_S256x32_0_224 inb_S4096x512_S4096x32_0_224 inb_S4096x512_S4096x32_0_224 inb_S256x512_S256x32_0_224 x
    · exact fun x => block_eq x0 x1 x2 6 192 rfl inb_S256x512_S256x32_0_192 inb_S4096x512_S4096x32_0_192 inb_S4096x512_S4096x32_0_192 inb_S256x512_S256x32_0_192 x
    · exact fun x => block_eq x0 x1 x2 5 160 rfl inb_S256x512_S256x32_0_160 inb_S4096x512_S4096x32_0_160 inb_S4096x512_S4096x32_0_160 inb_S256x512_S256x32_0_160 x
    · exact fun x => block_eq x0 x1 x2 4 128 rfl inb_S256x512_S256x32_0_128 inb_S4096x512_S4096x32_0_128 inb_S4096x512_S4096x32_0_128 inb_S256x512_S256x32_0_128 x
    · exact fun x => block_eq x0 x1 x2 3 96 rfl inb_S256x512_S256x32_0_96 inb_S4096x512_S4096x32_0_96 inb_S4096x512_S4096x32_0_96 inb_S256x512_S256x32_0_96 x
    · exact fun x => block_eq x0 x1 x2 2 64 rfl inb_S256x512_S256x32_0_64 inb_S4096x512_S4096x32_0_64 inb_S4096x512_S4096x32_0_64 inb_S256x512_S256x32_0_64 x
    · exact fun x => block_eq x0 x1 x2 1 32 rfl inb_S256x512_S256x32_0_32 inb_S4096x512_S4096x32_0_32 inb_S4096x512_S4096x32_0_32 inb_S256x512_S256x32_0_32 x
    · exact fun x => block_eq x0 x1 x2 0 0 rfl inb_S256x512_S256x32_0_0 inb_S4096x512_S4096x32_0_0 inb_S4096x512_S4096x32_0_0 inb_S256x512_S256x32_0_0 x
  refine (pay2_apply _ _ _ r n).trans ?_
  show _ = (∑ cc : Fin 512, attnK (fun j => ∑ d : Fin 32, x0 (ix2 r (hcol (headOf cc) d)) * toMat x1 j (hcol (headOf cc) d))
      (fun j => toMat x2 j cc) * toMat x3 cc n) + x4 (ix2 0 n)
  exact congrArg (· + x4 (ix2 0 n)) (Finset.sum_congr rfl fun cc _ => congrArg (· * toMat x3 cc n) (scratchG_apply x0 x1 x2 r cc))

end Cert.KernelIdeal.Body1

end
-- ==== Proof.Region1.lean ====
/-
  The array the second call leaves, as a function of the five arrays it is entered with.

  The call runs over 16 grid points. Point `t` reads rows `256 t ‥ 256 t + 255` of the query array and the whole of
  the key, value, output-weight and bias arrays, and writes rows `256 t ‥ 256 t + 255` of the output array. The body's
  block holds, at row `r`, `outRow` of row `r` of the query block; that row is row `256 t + r` of the query array, so
  the block written back is the same rows of the one function `outK` of the five arrays. The 16 blocks of 256 rows
  cover all 4096 rows (row `i` is in the block of point `i / 256`), so the array ends at `outK` everywhere.
-/
import proofs.«422940_j34505767256281_3_alg».proof.Proof.Gen.KernelIdeal.Frame
import proofs.«422940_j34505767256281_3_alg».proof.Proof.Region1Body
import Idealize.ShloMosaic.Lib.Pipeline.Value

set_option maxRecDepth 16384
noncomputable section

namespace Cert.KernelIdeal.Reg1

open Cert.KernelIdeal Cert.KernelIdeal.Gen Cert.KernelIdeal.Body1
open Idealize.ShloMosaic Idealize.ShloMosaic.TcCoe Idealize.ShloMosaic.Tactic Idealize.ShloMosaic.ValueIdx
open Idealize.SL Idealize.SL.Sem
open Idealize.ShloMosaic.Pipeline (Dat)
open Cert.Attn

section Blocks

variable (V : (c : Dev nD) → (b : Ref sig .tc) → Buf (Elt Ideal) ((c : Thread nD τ).loc b))

/-- The five arrays the call is entered with: queries, keys, values, output weights, bias row. -/
abbrev qarr (c : Dev nD) : Vec Ideal S4096x512 .bf16 := V c main_v4
abbrev karr (c : Dev nD) : Vec Ideal S4096x512 .bf16 := V c main_v5
abbrev varr (c : Dev nD) : Vec Ideal S4096x512 .bf16 := V c main_v6
abbrev warr (c : Dev nD) : Vec Ideal S512x512 .bf16 := V c main_v2
abbrev barr (c : Dev nD) : Vec Ideal S1x512 .f32 := V c main_v7

/-- The five input blocks at grid point `t`. -/
abbrev qblk (c : Dev nD) (t : Fin cfg1.N) : Vec Ideal S256x512 .bf16 := iblk1 V c 0 t
abbrev kblk (c : Dev nD) (t : Fin cfg1.N) : Vec Ideal S4096x512 .bf16 := iblk1 V c 1 t
abbrev vblk (c : Dev nD) (t : Fin cfg1.N) : Vec Ideal S4096x512 .bf16 := iblk1 V c 2 t
abbrev wblk (c : Dev nD) (t : Fin cfg1.N) : Vec Ideal S512x512 .bf16 := iblk1 V c 3 t
abbrev bblk (c : Dev nD) (t : Fin cfg1.N) : Vec Ideal S1x512 .f32 := iblk1 V c 4 t

/-- The block indices over the 16 grid points: the query and output windows move down by one block of 256 rows per
    point; the other four windows stay at block (0, 0), their whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the query block at point `t` is row `256 t + r` of the query array. -/
theorem qblk_apply (c : Dev nD) (t : Fin cfg1.N) (r : Fin 256) (cc : Fin 512) (i : Fin 4096) (hi : i.val = 256 * t.val + r.val) :
    qblk V c t (ix2 r cc) = qarr V c (ix2 i cc) := by
  obtain ⟨e0, e1, -⟩ := idx_facts t
  show V c main_v4 (((cfg1.win 0).blk t).view.emb (ix2 r cc)) = V c main_v4 (ix2 i cc)
  congr 1
  funext a; apply Fin.ext
  match a with
  | ⟨0, _⟩ => show win1_0.index t (0 : Fin 2) * 256 + 1 * r.val = i.val; omega
  | ⟨1, _⟩ => show win1_0.index t (1 : Fin 2) * 512 + 1 * cc.val = cc.val; omega

/-- The key window's one block is the key array. -/
theorem kblk_eq (c : Dev nD) (t : Fin cfg1.N) : kblk V c t = karr V c := by
  obtain ⟨-, -, e0, e1, -⟩ := idx_facts t
  funext y
  show V c main_v5 (((cfg1.win 1).blk t).view.emb y) = V c main_v5 y
  congr 1
  funext a; apply Fin.ext
  match a with
  | ⟨0, _⟩ => show win1_1.index t (0 : Fin 2) * 4096 + 1 * (y 0).val = (y 0).val; omega
  | ⟨1, _⟩ => show win1_1.index t (1 : Fin 2) * 512 + 1 * (y 1).val = (y 1).val; omega

/-- The value window's one block is the value array. -/
theorem vblk_eq (c : Dev nD) (t : Fin cfg1.N) : vblk V c t = varr V c := by
  obtain ⟨-, -, -, -, e0, e1, -⟩ := idx_facts t
  funext y
  show V c main_v6 (((cfg1.win 2).blk t).view.emb y) = V c main_v6 y
  congr 1
  funext a; apply Fin.ext
  match a with
  | ⟨0, _⟩ => show win1_2.index t (0 : Fin 2) * 4096 + 1 * (y 0).val = (y 0).val; omega
  | ⟨1, _⟩ => show win1_2.index t (1 : Fin 2) * 512 + 1 * (y 1).val = (y 1).val; omega

/-- The output-weight window's one block is the weight array. -/
theorem wblk_eq (c : Dev nD) (t : Fin cfg1.N) : wblk V c t = warr V c := by
  obtain ⟨-, -, -, -, -, -, e0, e1, -⟩ := idx_facts t
  funext y
  show V c main_v2 (((cfg1.win 3).blk t).view.emb y) = V c main_v2 y
  congr 1
  funext a; apply Fin.ext
  match a with
  | ⟨0, _⟩ => show win1_3.index t (0 : Fin 2) * 512 + 1 * (y 0).val = (y 0).val; omega
  | ⟨1, _⟩ => show win1_3.index t (1 : Fin 2) * 512 + 1 * (y 1).val = (y 1).val; omega

/-- The bias window's one block is the bias row. -/
theorem bblk_eq (c : Dev nD) (t : Fin cfg1.N) : bblk V c t = barr V c := by
  obtain ⟨-, -, -, -, -, -, -, -, e0, e1, -⟩ := idx_facts t
  funext y
  show V c main_v7 (((cfg1.win 4).blk t).view.emb y) = V c main_v7 y
  congr 1
  funext a; apply Fin.ext
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- The whole output as one function of the five arrays: row `i` is `outRow` of query row `i`. -/
abbrev outArr (c : Dev nD) : Vec Ideal S4096x512 .f32 :=
  ofMat (outK (toMat (qarr V c)) (toMat (karr V c)) (toMat (varr V c)) (toMat (warr V c)) (fun n => barr V c (ix2 0 n)))

/-- What grid point `t` writes back is rows `256 t ‥ 256 t + 255` of `outArr`: the body's block, entry by entry, with
    the query block read as those rows of the query array and the four whole windows as their arrays. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  have hN : grid1.N = 16 := N_1
  have ht : t.val < 16 := hN ▸ t.isLt
  obtain ⟨-, -, -, -, -, -, -, -, -, -, e0, e1⟩ := idx_facts t
  funext y
  obtain ⟨r, n, rfl⟩ : ∃ (r : Fin 256) (n : Fin 512), y = ix2 r n := ⟨y 0, y 1, eq_ix2 y⟩
  show outsAt1 V c t (ix2 r n) = outArr V c (((cfg1.win 5).blk t).view.emb (ix2 r n))
  have hemb : ((cfg1.win 5).blk t).view.emb (ix2 r n) = (ix2 (⟨256 * t.val + r.val, by omega⟩ : Fin 4096) n : S4096x512.Idx) := by
    funext a; apply Fin.ext
    match a with
    | ⟨0, _⟩ => show win1_5.index t (0 : Fin 2) * 256 + 1 * r.val = 256 * t.val + r.val; omega
    | ⟨1, _⟩ => show win1_5.index t (1 : Fin 2) * 512 + 1 * n.val = n.val; omega
  rw [hemb]
  unfold outsAt1
  refine (body_value c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (qblk V c t) (kblk V c t) (vblk V c t) (wblk V c t) (bblk V c t) r n).trans ?_
  rw [kblk_eq, vblk_eq, wblk_eq, bblk_eq]
  have hq : (fun cc : Fin 512 => qblk V c t (ix2 r cc)) = toMat (qarr V c) (⟨256 * t.val + r.val, by omega⟩ : Fin 4096) :=
    funext fun cc => qblk_apply V c t r cc _ rfl
  rw [hq]
  rfl

/-- An index of the output array is in point `t`'s block iff each coordinate is in the block's range on its axis. -/
theorem mem_blk (t : Fin cfg1.N) (i : S4096x512.Idx) :
    i ∈ ((cfg1.win 5).blk t).view.set ↔ ∀ a : Fin 2, win1_5.index t a * S256x512.size a ≤ (i a).val ∧ (i a).val < win1_5.index t a * S256x512.size a + S256x512.size a := by
  show i ∈ ((View.whole main_v8).slice (win1_5.rect t)).set ↔ _
  rw [View.set_slice_whole, Rect.mem_set_unit]
  exact Iff.rfl

/-- Row `i` of the output array lies in the block of point `i / 256`, and every point writes its block back. -/
theorem covered (i : S4096x512.Idx) : ∃ t : Fin cfg1.N, (cfg1.win 5).flush t = true ∧ i ∈ ((cfg1.win 5).blk t).view.set := by
  have hi0 : (i 0).val < 4096 := (i 0).isLt
  have hi1 : (i 1).val < 512 := (i 1).isLt
  have hN : grid1.N = 16 := N_1
  obtain ⟨t, htv⟩ : ∃ t : Fin cfg1.N, t.val = (i 0).val / 256 := ⟨⟨(i 0).val / 256, by show _ < grid1.N; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 512 ≤ (i 1).val ∧ (i 1).val < win1_5.index t (1 : Fin 2) * 512 + 512; omega

end Blocks

/-- After the second call its output array is `outK` of the arrays the call was entered with. -/
theorem region1_final (V : (c : Dev nD) → (b : Ref sig .tc) → Buf (Elt Ideal) ((c : Thread nD τ).loc b)) (c : Dev nD) :
    (dat1 V c).arrAt 5 cfg1.N
      = ofMat (outK (toMat (V c main_v4)) (toMat (V c main_v5)) (toMat (V c main_v6)) (toMat (V c main_v2)) (fun n => V c main_v7 (ix2 0 n))) :=
  (dat1 V c).arrAt_eq_of_cover 5 (outArr V c) (fun t _ => flushed_eq V c t) (covered)

end Cert.KernelIdeal.Reg1

end
-- ==== Proof.KernelValue.lean ====
/-
  The kernel's result buffer as a function of the arguments.

  Around the two calls the host only moves data: before the first call the three matrix arguments change float format
  (the identity on the extended reals); the first call leaves `qkvK` of the projection of the first two; the host then
  cuts that array into its three column thirds (queries, keys, values) and lays the bias out as a 1 × 512 row; the second
  call computes `outK` of those five arrays. Reading each of the five arrays back to the arguments, entry by entry, turns
  `outK` of them into `KOut` of the arguments.
-/
import proofs.«422940_j34505767256281_3_alg».proof.Proof.Gen.KernelIdeal.Frame
import proofs.«422940_j34505767256281_3_alg».proof.Proof.Region0
import proofs.«422940_j34505767256281_3_alg».proof.Proof.Region1
import Idealize.ShloMosaic.Lib.Pipeline.Value

set_option maxRecDepth 16384
noncomputable section

namespace Cert.KernelIdeal.KVal

open Cert.KernelIdeal Cert.KernelIdeal.Gen Cert.KernelIdeal.Reg0 Cert.KernelIdeal.Reg1
open Idealize.ShloMosaic Idealize.ShloMosaic.TcCoe Idealize.ShloMosaic.Tactic Idealize.ShloMosaic.ValueIdx
open Idealize.SL Idealize.SL.Sem
open Cert.Attn

variable (m : (ℓ : Loc nD τ sig) → Buf (Elt Ideal) ℓ) (ρ : Dev nD → PrngReg)

/-! ## The arrays at the second boundary (the first call's exit) -/

/-- The first call's output array at its exit: the relu'd, scaled projection. -/
theorem W2_v3 (c : Dev nD) :
    W2 m ρ c (Proc.devRef .tc main_v3)
      = ofMat (qkvK (proj (toMat (m ((c : Thread nD τ).loc main_arg0))) (toMat (m ((c : Thread nD τ).loc main_arg1))))) :=
  (W2_arr m ρ c 2).trans (region0_final m ρ c)

/-- The output weights, converted before the first call (the identity on the extended reals), pass through it
    unchanged. -/
theorem W2_v2 (c : Dev nD) (j : S512x512.Idx) :
    (W2 m ρ c (Proc.devRef .tc main_v2) : S512x512.Idx → EReal) j
      = (m ((c : Thread nD τ).loc main_arg2) : S512x512.Idx → EReal) j := by
  refine (congrFun (W2_of_ne m ρ c main_v2 (by decide)) j).trans ?_
  show StableHlo.after hostOps0 (W0 m ρ c) (Proc.devRef .tc main_v2) j = _
  after_results
  rfl

/-- The bias argument is as launched at the first call's exit. -/
theorem W2_arg3 (c : Dev nD) :
    W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

/-! ## The five arrays the second call is entered with -/

/-- The queries' array is the slice of columns 0‥511 of the first call's array. -/
theorem V3_v4 (c : Dev nD) :
    (V3 m ρ c main_v4 : S4096x512.Idx → EReal)
      = extractStridedSlice S4096x512 ![0, 0] (W2 m ρ c (Proc.devRef .tc main_v3)) slices_S4096x1536_S4096x512_0_0 := by
  show StableHlo.after hostOps1 _ (Proc.devRef .tc main_v4) = _
  after_results

/-- The keys' array is the slice of columns 512‥1023. -/
theorem V3_v5 (c : Dev nD) :
    (V3 m ρ c main_v5 : S4096x512.Idx → EReal)
      = extractStridedSlice S4096x512 ![0, 512] (W2 m ρ c (Proc.devRef .tc main_v3)) slices_S4096x1536_S4096x512_0_512 := by
  show StableHlo.after hostOps1 _ (Proc.devRef .tc main_v5) = _
  after_results

/-- The values' array is the slice of columns 1024‥1535. -/
theorem V3_v6 (c : Dev nD) :
    (V3 m ρ c main_v6 : S4096x512.Idx → EReal)
      = extractStridedSlice S4096x512 ![0, 1024] (W2 m ρ c (Proc.devRef .tc main_v3)) slices_S4096x1536_S4096x512_0_1024 := by
  show StableHlo.after hostOps1 _ (Proc.devRef .tc main_v6) = _
  after_results

/-- The bias row is the fourth argument laid out as 1 × 512. -/
theorem V3_v7 (c : Dev nD) :
    (V3 m ρ c main_v7 : S1x512.Idx → EReal)
      = shapeCast S1x512 (W2 m ρ c (Proc.devRef .tc main_arg3)) shapeCasts_S512_S1x512 := by
  show StableHlo.after hostOps1 _ (Proc.devRef .tc main_v7) = _
  after_results
  rfl

/-- The output weights are not touched between the calls. -/
theorem V3_v2 (c : Dev nD) :
    V3 m ρ c main_v2 = W2 m ρ c (Proc.devRef .tc main_v2) := by
  show StableHlo.after hostOps1 _ (Proc.devRef .tc main_v2) = _
  after_results

/-! ## A column third of a 4096 × 1536 array, read at an index -/

/-- Columns 0‥511: entry `(i, cc)` of the slice is entry `(i, cc)` of the array. -/
theorem slice_q (A : S4096x1536.Idx → EReal) (i : Fin 4096) (cc : Fin 512) :
    extractStridedSlice S4096x512 ![0, 0] A slices_S4096x1536_S4096x512_0_0 (ix2 i cc) = A (ix2 i ⟨cc.val, by omega⟩) :=
  extractStridedSlice_apply ![0, 0] A _ (ix2 i cc) (ix2 i ⟨cc.val, by omega⟩) fun a => by
    match a with
    | ⟨0, _⟩ => exact (Nat.zero_add _).symm
    | ⟨1, _⟩ => exact (Nat.zero_add _).symm

/-- Columns 512‥1023: entry `(i, cc)` of the slice is entry `(i, 512 + cc)` of the array. -/
theorem slice_k (A : S4096x1536.Idx → EReal) (i : Fin 4096) (cc : Fin 512) :
    extractStridedSlice S4096x512 ![0, 512] A slices_S4096x1536_S4096x512_0_512 (ix2 i cc) = A (ix2 i ⟨512 + cc.val, by omega⟩) :=
  extractStridedSlice_apply ![0, 512] A _ (ix2 i cc) (ix2 i ⟨512 + cc.val, by omega⟩) fun a => by
    match a with
    | ⟨0, _⟩ => exact (Nat.zero_add _).symm
    | ⟨1, _⟩ => rfl

/-- Columns 1024‥1535: entry `(i, cc)` of the slice is entry `(i, 1024 + cc)` of the array. -/
theorem slice_v (A : S4096x1536.Idx → EReal) (i : Fin 4096) (cc : Fin 512) :
    extractStridedSlice S4096x512 ![0, 1024] A slices_S4096x1536_S4096x512_0_1024 (ix2 i cc) = A (ix2 i ⟨1024 + cc.val, by omega⟩) :=
  extractStridedSlice_apply ![0, 1024] A _ (ix2 i cc) (ix2 i ⟨1024 + cc.val, by omega⟩) fun a => by
    match a with
    | ⟨0, _⟩ => exact (Nat.zero_add _).symm
    | ⟨1, _⟩ => rfl

/-- The bias as a 1 × 512 array, read at column `n`. -/
theorem row_of_vec (v : S512.Idx → EReal) (n : Fin 512) :
    shapeCast S1x512 v shapeCasts_S512_S1x512 (ix2 0 n) = v (ix1 n) := by
  refine (shapeCast_addUnit_apply ![512] v shapeCasts_S512_S1x512 (ix2 0 n)).trans (congrArg v ?_)
  funext a
  match a with
  | ⟨0, _⟩ => rfl

/-! ## The five arrays as matrices of the arguments -/

/-- The queries: the first column third of the first call's array. -/
theorem q_eq (c : Dev nD) :
    toMat (V3 m ρ c main_v4)
      = segQ (qkvK (proj (toMat (m ((c : Thread nD τ).loc main_arg0))) (toMat (m ((c : Thread nD τ).loc main_arg1))))) := by
  funext i cc
  show (V3 m ρ c main_v4 : S4096x512.Idx → EReal) (ix2 i cc) = _
  rw [V3_v4 m ρ c, W2_v3 m ρ c]
  exact slice_q _ i cc

/-- The keys: its second column third. -/
theorem k_eq (c : Dev nD) :
    toMat (V3 m ρ c main_v5)
      = segK (qkvK (proj (toMat (m ((c : Thread nD τ).loc main_arg0))) (toMat (m ((c : Thread nD τ).loc main_arg1))))) := by
  funext i cc
  show (V3 m ρ c main_v5 : S4096x512.Idx → EReal) (ix2 i cc) = _
  rw [V3_v5 m ρ c, W2_v3 m ρ c]
  exact slice_k _ i cc

/-- The values: its last column third. -/
theorem v_eq (c : Dev nD) :
    toMat (V3 m ρ c main_v6)
      = segV (qkvK (proj (toMat (m ((c : Thread nD τ).loc main_arg0))) (toMat (m ((c : Thread nD τ).loc main_arg1))))) := by
  funext i cc
  show (V3 m ρ c main_v6 : S4096x512.Idx → EReal) (ix2 i cc) = _
  rw [V3_v6 m ρ c, W2_v3 m ρ c]
  exact slice_v _ i cc

/-- The output weights are the third argument. -/
theorem wo_eq (c : Dev nD) :
    toMat (V3 m ρ c main_v2) = toMat (m ((c : Thread nD τ).loc main_arg2)) := by
  funext i k
  show (V3 m ρ c main_v2 : S512x512.Idx → EReal) (ix2 i k) = _
  rw [V3_v2 m ρ c]
  exact W2_v2 m ρ c (ix2 i k)

/-- The bias row is the fourth argument. -/
theorem b_eq (c : Dev nD) :
    (fun n => V3 m ρ c main_v7 (ix2 0 n)) = toVec (m ((c : Thread nD τ).loc main_arg3)) := by
  funext n
  show (V3 m ρ c main_v7 : S1x512.Idx → EReal) (ix2 0 n) = _
  rw [V3_v7 m ρ c, W2_arg3 m ρ c]
  exact row_of_vec _ n

/-- At the last boundary the result buffer holds `KOut` of the four arguments. -/
theorem kernel_value (c : Dev nD) :
    W4 m ρ c (Proc.devRef .tc main_v8)
      = ofMat (KOut (toMat (m ((c : Thread nD τ).loc main_arg0))) (toMat (m ((c : Thread nD τ).loc main_arg1)))
          (toMat (m ((c : Thread nD τ).loc main_arg2))) (toVec (m ((c : Thread nD τ).loc main_arg3)))) := by
  refine (W4_arr m ρ c 5).trans ?_
  rw [region1_final (V3 m ρ) c, q_eq m ρ c, k_eq m ρ c, v_eq m ρ c, wo_eq m ρ c, b_eq m ρ c]
  rfl

end Cert.KernelIdeal.KVal

end
-- ==== Proof.Reference.lean ====
/-
  The reference's result as a function of the arguments.
-/
import proofs.«422940_j34505767256281_3_alg».proof.Proof.Gen.ReferenceIdeal.Run
import proofs.«422940_j34505767256281_3_alg».proof.Proof.Gen.ReferenceIdeal.Read
import proofs.«422940_j34505767256281_3_alg».proof.Proof.Spec

set_option maxRecDepth 16384
noncomputable section

namespace Cert.ReferenceIdeal.RefValue

open Cert.ReferenceIdeal
open Idealize.ShloMosaic Idealize.ShloMosaic.TcCoe Idealize.ShloMosaic.ValueIdx Idealize.SL.Sem
open Cert.Attn

open Cert.ReferenceIdeal.Read Cert.ReferenceIdeal.Gen
open scoped BigOperators

section stages

variable (x0 : (⟨S4096x512, .f32⟩ : BufTy).Contents (Elt Ideal)) (x1 : (⟨S512x1536, .f32⟩ : BufTy).Contents (Elt Ideal))

/-- The projection stage at row `i`, column `n`. -/
theorem v0_at (i : Fin 4096) (n : Fin 1536) :
    val_main_v0 (F := Ideal) x0 x1 (ix2 i n) = proj (toMat x0) (toMat x1) i n := by
  rw [val_main_v0_apply]
  refine Finset.sum_congr rfl fun k _ => ?_
  have el : lidx_main_v0 (ix2 i n) k = ix2 i k :=
    funext fun a => Fin.ext (by match a with | ⟨0, _⟩ => rfl | ⟨1, _⟩ => rfl)
  have er : ridx_main_v0 (ix2 i n) k = ix2 k n :=
    funext fun a => Fin.ext (by match a with | ⟨0, _⟩ => rfl | ⟨1, _⟩ => rfl)
  rw [el, er]
  rfl

/-- Head `h`, row `i`, lane `d` of the heads' layout is column `32h+d` of row `i`: the reshape to
    [4096,16,32] followed by the transposition to [16,4096,32], read backwards. -/
theorem idx_heads_q (h : Fin 16) (i : Fin 4096) (d : Fin 32) :
    idx_main_v4 (idx_main_v5 (ix3 h i d)) = ix2 i (hcol h d) :=
  funext fun a => Fin.ext (by
    have hh := h.isLt; have hi := i.isLt; have hd := d.isLt
    match a with
    | ⟨0, _⟩ => show ((i.val * 16 + h.val) * 32 + d.val) / 512 = i.val; omega
    | ⟨1, _⟩ => show ((i.val * 16 + h.val) * 32 + d.val) % 512 = 32 * h.val + d.val; omega)

theorem idx_heads_k (h : Fin 16) (i : Fin 4096) (d : Fin 32) :
    idx_main_v6 (idx_main_v7 (ix3 h i d)) = ix2 i (hcol h d) :=
  funext fun a => Fin.ext (by
    have hh := h.isLt; have hi := i.isLt; have hd := d.isLt
    match a with
    | ⟨0, _⟩ => show ((i.val * 16 + h.val) * 32 + d.val) / 512 = i.val; omega
    | ⟨1, _⟩ => show ((i.val * 16 + h.val) * 32 + d.val) % 512 = 32 * h.val + d.val; omega)

theorem idx_heads_v (h : Fin 16) (i : Fin 4096) (d : Fin 32) :
    idx_main_v8 (idx_main_v9 (ix3 h i d)) = ix2 i (hcol h d) :=
  funext fun a => Fin.ext (by
    have hh := h.isLt; have hi := i.isLt; have hd := d.isLt
    match a with
    | ⟨0, _⟩ => show ((i.val * 16 + h.val) * 32 + d.val) / 512 = i.val; omega
    | ⟨1, _⟩ => show ((i.val * 16 + h.val) * 32 + d.val) % 512 = 32 * h.val + d.val; omega)

/-- The relu'd query of head `h`, row `i`, lane `d`. -/
theorem v10_at (h : Fin 16) (i : Fin 4096) (d : Fin 32) :
    val_main_v10 (F := Ideal) x0 x1 (ix3 h i d) = max (proj (toMat x0) (toMat x1) i (qcol h d)) zero := by
  rw [val_main_v10_apply, val_main_v5_apply, val_main_v4_apply, idx_heads_q, val_main_v1_apply,
    val_main_call0_v0_apply, val_main_call0_cst_apply]
  have e : idx_main_v1 (ix2 i (hcol h d)) = ix2 i (qcol h d) :=
    funext fun a => Fin.ext (by match a with | ⟨0, _⟩ => rfl | ⟨1, _⟩ => rfl)
  rw [e, v0_at]
  rfl

/-- The relu'd key of head `h`, row `j`, lane `d`. -/
theorem v11_at (h : Fin 16) (j : Fin 4096) (d : Fin 32) :
    val_main_v11 (F := Ideal) x0 x1 (ix3 h j d) = max (proj (toMat x0) (toMat x1) j (kcol h d)) zero := by
  rw [val_main_v11_apply, val_main_v7_apply, val_main_v6_apply, idx_heads_k, val_main_v2_apply,
    val_main_call1_v0_apply, val_main_call1_cst_apply]
  have e : idx_main_v2 (ix2 j (hcol h d)) = ix2 j (kcol h d) :=
    funext fun a => Fin.ext (by match a with | ⟨0, _⟩ => rfl | ⟨1, _⟩ => rfl)
  rw [e, v0_at]
  rfl

/-- The value of head `h`, row `j`, lane `d`. -/
theorem v9_at (h : Fin 16) (j : Fin 4096) (d : Fin 32) :
    val_main_v9 (F := Ideal) x0 x1 (ix3 h j d) = proj (toMat x0) (toMat x1) j (vcol h d) := by
  rw [val_main_v9_apply, val_main_v8_apply, idx_heads_v, val_main_v3_apply]
  have e : idx_main_v3 (ix2 j (hcol h d)) = ix2 j (vcol h d) :=
    funext fun a => Fin.ext (by match a with | ⟨0, _⟩ => rfl | ⟨1, _⟩ => rfl)
  rw [e, v0_at]

/-- The scaled score of head `h`, query row `i`, key row `j`. -/
theorem v14_at (h : Fin 16) (i j : Fin 4096) :
    val_main_v14 (F := Ideal) x0 x1 (ix3 h i j) = scoreR (proj (toMat x0) (toMat x1)) h i j := by
  rw [val_main_v14_apply, val_main_v12_apply, val_main_v13_apply, val_main_cst_apply, Ideal.mulf_def]
  unfold scoreR
  refine congrArg₂ (· * ·) (Finset.sum_congr rfl fun k _ => ?_) rfl
  have el : lidx_main_v12 (ix3 h i j) k = ix3 h i k :=
    funext fun a => Fin.ext (by match a with | ⟨0, _⟩ => rfl | ⟨1, _⟩ => rfl | ⟨2, _⟩ => rfl)
  have er : ridx_main_v12 (ix3 h i j) k = ix3 h j k :=
    funext fun a => Fin.ext (by match a with | ⟨0, _⟩ => rfl | ⟨1, _⟩ => rfl | ⟨2, _⟩ => rfl)
  rw [el, er, v10_at, v11_at]

/-- The row maximum of head `h`, row `i`: the fold of `max` from `-∞` over the key rows. -/
theorem v15_at (h : Fin 16) (i : Fin 4096) :
    val_main_v15 (F := Ideal) x0 x1 (ix2 h i) = rowMax (scoreR (proj (toMat x0) (toMat x1)) h i) := by
  have hy : ∀ k : Fin 4096, val_main_v14 (F := Ideal) x0 x1 (ix3 h i k) = scoreR (proj (toMat x0) (toMat x1)) h i k :=
    fun k => v14_at x0 x1 h i k
  unfold val_main_v15
  generalize val_main_v14 (F := Ideal) x0 x1 = y at hy ⊢
  have hred : S16x4096x4096.Reduces [2] S16x4096 := by decide
  refine (Host.reduce_eq_fold_single (α := Ideal .f32) (FloatOps.maximumf (F := Ideal) (φ := .f32)) y _
    reducesTo_S16x4096x4096_S16x4096_d2 hred h_S_ (ix2 h i)).trans ?_
  unfold rowMax
  show (Finset.univ : Finset (Fin 4096)).fold max ninf (fun k : Fin 4096 => y (hred.lift (ix2 h i) k)) = _
  refine Finset.fold_congr fun k _ => ?_
  have e : hred.lift (ix2 h i) k = ix3 h i k :=
    funext fun a => Fin.ext (by match a with | ⟨0, _⟩ => rfl | ⟨1, _⟩ => rfl | ⟨2, _⟩ => rfl)
  rw [e]
  exact hy k

/-- The row maximum as the softmax uses it: once more against `-∞`. -/
theorem v17_at (h : Fin 16) (i : Fin 4096) :
    val_main_v17 (F := Ideal) x0 x1 (ix2 h i) = max ninf (rowMax (scoreR (proj (toMat x0) (toMat x1)) h i)) := by
  rw [val_main_v17_apply, val_main_v16_apply, val_main_cst_1_apply, v15_at]
  rfl

/-- The row maximum broadcast along the key rows. -/
theorem v19_at (h : Fin 16) (i j : Fin 4096) :
    val_main_v19 (F := Ideal) x0 x1 (ix3 h i j) = max ninf (rowMax (scoreR (proj (toMat x0) (toMat x1)) h i)) := by
  rw [val_main_v19_apply, val_main_v18_apply]
  have e : idx_main_v18 (idx_main_v19 (ix3 h i j)) = ix2 h i :=
    funext fun a => Fin.ext (by match a with | ⟨0, _⟩ => rfl | ⟨1, _⟩ => rfl)
  rw [e, v17_at]

/-- The unnormalised weight of key row `j` for query row `i` in head `h`. -/
theorem v21_at (h : Fin 16) (i j : Fin 4096) :
    val_main_v21 (F := Ideal) x0 x1 (ix3 h i j)
      = Ideal.exp (scoreR (proj (toMat x0) (toMat x1)) h i j - max ninf (rowMax (scoreR (proj (toMat x0) (toMat x1)) h i))) := by
  rw [val_main_v21_apply, val_main_v20_apply, v14_at, v19_at]
  rfl

/-- The sum of a row's weights, from zero. -/
theorem v22_at (h : Fin 16) (i : Fin 4096) :
    val_main_v22 (F := Ideal) x0 x1 (ix2 h i)
      = zero + ∑ j : Fin 4096, Ideal.exp (scoreR (proj (toMat x0) (toMat x1)) h i j - max ninf (rowMax (scoreR (proj (toMat x0) (toMat x1)) h i))) := by
  rw [val_main_v22_apply]
  refine congrArg₂ (· + ·) rfl (Finset.sum_congr rfl fun k _ => ?_)
  have e : idx_main_v22 (ix2 h i) k = ix3 h i k :=
    funext fun a => Fin.ext (by match a with | ⟨0, _⟩ => rfl | ⟨1, _⟩ => rfl | ⟨2, _⟩ => rfl)
  rw [e, v21_at]

/-- The sum of a row's weights broadcast along the key rows. -/
theorem v24_at (h : Fin 16) (i j : Fin 4096) :
    val_main_v24 (F := Ideal) x0 x1 (ix3 h i j)
      = zero + ∑ j' : Fin 4096, Ideal.exp (scoreR (proj (toMat x0) (toMat x1)) h i j' - max ninf (rowMax (scoreR (proj (toMat x0) (toMat x1)) h i))) := by
  rw [val_main_v24_apply, val_main_v23_apply]
  have e : idx_main_v23 (idx_main_v24 (ix3 h i j)) = ix2 h i :=
    funext fun a => Fin.ext (by match a with | ⟨0, _⟩ => rfl | ⟨1, _⟩ => rfl)
  rw [e, v22_at]

/-- The normalised weight. -/
theorem v25_at (h : Fin 16) (i j : Fin 4096) :
    val_main_v25 (F := Ideal) x0 x1 (ix3 h i j)
      = Ideal.div (Ideal.exp (scoreR (proj (toMat x0) (toMat x1)) h i j - max ninf (rowMax (scoreR (proj (toMat x0) (toMat x1)) h i))))
          (zero + ∑ j' : Fin 4096, Ideal.exp (scoreR (proj (toMat x0) (toMat x1)) h i j' - max ninf (rowMax (scoreR (proj (toMat x0) (toMat x1)) h i)))) := by
  rw [val_main_v25_apply, v21_at, v24_at]
  rfl

/-- One head's output at row `i`, lane `d`. -/
theorem v26_at (h : Fin 16) (i : Fin 4096) (d : Fin 32) :
    val_main_v26 (F := Ideal) x0 x1 (ix3 h i d)
      = attnR (scoreR (proj (toMat x0) (toMat x1)) h i) (fun j => proj (toMat x0) (toMat x1) j (vcol h d)) := by
  rw [val_main_v26_apply]
  unfold attnR
  refine Finset.sum_congr rfl fun k _ => ?_
  have el : lidx_main_v26 (ix3 h i d) k = ix3 h i k :=
    funext fun a => Fin.ext (by match a with | ⟨0, _⟩ => rfl | ⟨1, _⟩ => rfl | ⟨2, _⟩ => rfl)
  have er : ridx_main_v26 (ix3 h i d) k = ix3 h k d :=
    funext fun a => Fin.ext (by match a with | ⟨0, _⟩ => rfl | ⟨1, _⟩ => rfl | ⟨2, _⟩ => rfl)
  rw [el, er, v25_at, v9_at]

/-- Column `cc` of the concatenation is lane `cc % 32` of head `cc / 32`: the transposition back and the
    reshape to [4096,512], read backwards. -/
theorem idx_concat (i : Fin 4096) (cc : Fin 512) :
    idx_main_v27 (idx_main_v28 (ix2 i cc)) = ix3 (headOf cc) i (laneOf cc) :=
  funext fun a => Fin.ext (by
    have hi := i.isLt; have hc := cc.isLt
    match a with
    | ⟨0, _⟩ => show (i.val * 512 + cc.val) / 32 % 16 = cc.val / 32; omega
    | ⟨1, _⟩ => show (i.val * 512 + cc.val) / 512 = i.val; omega
    | ⟨2, _⟩ => show (i.val * 512 + cc.val) % 32 = cc.val % 32; omega)

/-- The heads' outputs side by side, at row `i`, column `cc`. -/
theorem v28_at (i : Fin 4096) (cc : Fin 512) :
    val_main_v28 (F := Ideal) x0 x1 (ix2 i cc) = concatR (proj (toMat x0) (toMat x1)) i cc := by
  rw [val_main_v28_apply, val_main_v27_apply, idx_concat, v26_at]
  rfl

/-- The reference's last stage at row `i`, column `n`. -/
theorem v32_at (x2 : (⟨S512x512, .f32⟩ : BufTy).Contents (Elt Ideal)) (x3 : (⟨S512, .f32⟩ : BufTy).Contents (Elt Ideal))
    (i : Fin 4096) (n : Fin 512) :
    val_main_v32 (F := Ideal) x0 x1 x2 x3 (ix2 i n) = outR (toMat x0) (toMat x1) (toMat x2) (toVec x3) i n := by
  rw [val_main_v32_apply, val_main_v29_apply, val_main_v31_apply, val_main_v30_apply, Ideal.addf_def]
  unfold outR
  refine congrArg₂ (· + ·) (Finset.sum_congr rfl fun k _ => ?_) ?_
  · have el : lidx_main_v29 (ix2 i n) k = ix2 i k :=
      funext fun a => Fin.ext (by match a with | ⟨0, _⟩ => rfl | ⟨1, _⟩ => rfl)
    have er : ridx_main_v29 (ix2 i n) k = ix2 k n :=
      funext fun a => Fin.ext (by match a with | ⟨0, _⟩ => rfl | ⟨1, _⟩ => rfl)
    rw [el, er, v28_at]
    rfl
  · have e : idx_main_v30 (idx_main_v31 (ix2 i n)) = ix1 n :=
      funext fun a => Fin.ext (by match a with | ⟨0, _⟩ => rfl)
    rw [e]
    rfl

end stages

/-- The reference run's result term is `outR` of the four arguments. -/
theorem ref_value (m : (ℓ : Loc nD τ sig) → Buf (Elt Ideal) ℓ) (c : Dev nD) :
    Cert.ReferenceIdeal.Value.res_main_v32 (F := Ideal) m c
      = ofMat (outR (toMat (m ((c.tc : Thread nD τ).loc main_arg0))) (toMat (m ((c.tc : Thread nD τ).loc main_arg1)))
          (toMat (m ((c.tc : Thread nD τ).loc main_arg2))) (toVec (m ((c.tc : Thread nD τ).loc main_arg3)))) := by
  rw [val_main_v32_eq]
  funext y
  obtain ⟨p, q, rfl⟩ : ∃ (p : Fin 4096) (q : Fin 512), y = ix2 p q := ⟨y 0, y 1, eq_ix2 y⟩
  rw [v32_at]
  rfl

end Cert.ReferenceIdeal.RefValue

end
-- ==== Proof.Algebra.lean ====
/-
  The two ways of computing the attention output agree on finite arguments.

  Everything is real: the projection of finite matrices is a finite sum of products of reals, so the scores are
  reals, a row's maximum (the fold of max over a nonempty row of reals) is a real, the weights are positive reals and
  so is their sum. Over the reals the scale moves across the finite sum of the score, and the division by the sum of
  the weights distributes over the finite weighted sum.
-/
import proofs.«422940_j34505767256281_3_alg».proof.Proof.Spec

noncomputable section

namespace Cert.Attn

open Idealize.ShloMosaic
open scoped BigOperators

/-! ## The constants -/

theorem zero_eq : zero = 0 := Ideal.ofBits_zero_f32

/-- Sign 1, exponent all ones, fraction 0: the pattern of -∞. -/
theorem ninf_eq : ninf = ⊥ := by
  simp [ninf, Ideal.ofBits, Ideal.ieee]

/-- The scale's exponent field is neither all ones nor zero: a normal number, hence a real. -/
theorem scale_real : ∃ c : ℝ, scale = (c : EReal) := by
  unfold scale Ideal.ofBits Ideal.ieee
  simp only []
  rw [if_neg (by decide), if_neg (by decide)]
  exact ⟨_, rfl⟩

/-! ## Reals inside the extended reals -/

/-- The embedding of the reals commutes with finite sums. -/
theorem coe_sum {ι : Type*} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The embedding of the reals is monotone, so it commutes with max. -/
theorem coe_max (a b : ℝ) : ((max a b : ℝ) : EReal) = max (a : EReal) (b : EReal) :=
  EReal.coe_strictMono.monotone.map_max

theorem max_coe_zero (a : ℝ) : max (a : EReal) zero = ((max a 0 : ℝ) : EReal) := by
  rw [zero_eq, coe_max, EReal.coe_zero]

/-- The fold of max from -∞ over a family of reals is -∞ on the empty family and a real otherwise. -/
theorem fold_max_real {ι : Type*} (f : ι → ℝ) (t : Finset ι) :
    (t = ∅ ∧ t.fold max (⊥ : EReal) (fun j => (f j : EReal)) = ⊥) ∨
      ∃ m : ℝ, t.fold max (⊥ : EReal) (fun j => (f j : EReal)) = (m : EReal) := by
  classical
  induction t using Finset.induction_on with
  | empty => exact Or.inl ⟨rfl, Finset.fold_empty⟩
  | insert a t ha ih =>
    right
    rw [Finset.fold_insert ha]
    rcases ih with ⟨_, h⟩ | ⟨m, h⟩
    · exact ⟨f a, by rw [h, max_bot_right]⟩
    · exact ⟨max (f a) m, by rw [h, coe_max]⟩

/-- The maximum of a row of reals is a real. -/
theorem rowMax_real (s : Fin 4096 → ℝ) : ∃ m : ℝ, rowMax (fun j => (s j : EReal)) = (m : EReal) := by
  unfold rowMax
  rw [ninf_eq]
  rcases fold_max_real s Finset.univ with ⟨h, _⟩ | h
  · exact absurd h Finset.univ_nonempty.ne_empty
  · exact h

/-! ## One head's output: dividing once after the weighted sum, or each weight before it -/

theorem attnK_eq_attnR (s v : Fin 4096 → ℝ) :
    attnK (fun j => (s j : EReal)) (fun j => (v j : EReal))
      = attnR (fun j => (s j : EReal)) (fun j => (v j : EReal)) := by
  obtain ⟨m, hm⟩ := rowMax_real s
  unfold attnK attnR
  rw [hm, ninf_eq, max_bot_left, zero_eq, zero_add]
  have he : ∀ j, Ideal.exp ((s j : EReal) - (m : EReal)) = ((Real.exp (s j - m) : ℝ) : EReal) := by
    intro j; rw [← EReal.coe_sub, Ideal.exp_coe]
  simp only [he]
  rw [coe_sum]
  have hL : (∑ j : Fin 4096, Real.exp (s j - m)) ≠ 0 :=
    (Finset.sum_pos (fun j _ => Real.exp_pos _) Finset.univ_nonempty).ne'
  simp only [Ideal.div_coe hL, ← EReal.coe_mul, coe_sum]
  rw [Finset.sum_mul]
  refine congrArg _ (Finset.sum_congr rfl ?_)
  intro j _
  ring

/-! ## The three thirds of the relu'd and scaled projection, at the columns the heads read -/

theorem segQ_hcol (P : Mat 4096 1536) (i : Fin 4096) (h : Fin 16) (d : Fin 32) :
    segQ (qkvK P) i (hcol h d) = max (P i (qcol h d)) zero * scale := by
  have hlt := (hcol h d).isLt
  unfold segQ qkvK
  rw [if_pos (by simp only [Fin.val_mk]; omega)]
  rfl

theorem segK_hcol (P : Mat 4096 1536) (j : Fin 4096) (h : Fin 16) (d : Fin 32) :
    segK (qkvK P) j (hcol h d) = max (P j (kcol h d)) zero := by
  have hlt := (hcol h d).isLt
  unfold segK qkvK
  rw [if_neg (by simp only [Fin.val_mk]; omega), if_pos (by simp only [Fin.val_mk]; omega)]
  rfl

theorem segV_eq (P : Mat 4096 1536) (j : Fin 4096) (cc : Fin 512) :
    segV (qkvK P) j cc = P j (vcol (headOf cc) (laneOf cc)) := by
  unfold segV qkvK
  rw [if_neg (by simp only [Fin.val_mk]; omega), if_neg (by simp only [Fin.val_mk]; omega)]
  congr 1
  apply Fin.ext
  simp only [vcol, headOf, laneOf, Fin.val_mk]
  omega

/-! ## The scores: the scale inside the queries, or on the finished sum -/

theorem score_real (p : Fin 4096 → Fin 1536 → ℝ) (h : Fin 16) (i j : Fin 4096) : ∃ r : ℝ,
    scoreR (fun i n => (p i n : EReal)) h i j = (r : EReal) ∧
    (∑ d : Fin 32, segQ (qkvK (fun i n => (p i n : EReal))) i (hcol h d)
        * segK (qkvK (fun i n => (p i n : EReal))) j (hcol h d)) = (r : EReal) := by
  obtain ⟨c, hc⟩ := scale_real
  refine ⟨(∑ d : Fin 32, max (p i (qcol h d)) 0 * max (p j (kcol h d)) 0) * c, ?_, ?_⟩
  · unfold scoreR
    simp only [max_coe_zero, hc, ← EReal.coe_mul, coe_sum]
  · simp only [segQ_hcol, segK_hcol, max_coe_zero, hc, ← EReal.coe_mul, coe_sum]
    rw [Finset.sum_mul]
    refine congrArg _ (Finset.sum_congr rfl ?_)
    intro d _
    ring

/-! ## The projection of finite matrices is real -/

theorem proj_real (X : Mat 4096 512) (W : Mat 512 1536)
    (hX : ∀ i k, X i k ≠ ⊥ ∧ X i k ≠ ⊤) (hW : ∀ k n, W k n ≠ ⊥ ∧ W k n ≠ ⊤) :
    ∃ p : Fin 4096 → Fin 1536 → ℝ, proj X W = fun i n => (p i n : EReal) := by
  refine ⟨fun i n => ∑ k : Fin 512, (X i k).toReal * (W k n).toReal, ?_⟩
  funext i n
  unfold proj
  rw [← coe_sum]
  apply Finset.sum_congr rfl
  intro k _
  rw [EReal.coe_mul, EReal.coe_toReal (hX i k).2 (hX i k).1, EReal.coe_toReal (hW k n).2 (hW k n).1]

/-! ## Assembly -/

/-- One entry of the heads' outputs side by side, both ways, from a real projection. -/
theorem head_eq (p : Fin 4096 → Fin 1536 → ℝ) (i : Fin 4096) (cc : Fin 512) :
    attnK (fun j => ∑ d : Fin 32, segQ (qkvK (fun i n => (p i n : EReal))) i (hcol (headOf cc) d)
          * segK (qkvK (fun i n => (p i n : EReal))) j (hcol (headOf cc) d))
        (fun j => segV (qkvK (fun i n => (p i n : EReal))) j cc)
      = attnR (scoreR (fun i n => (p i n : EReal)) (headOf cc) i)
          (fun j => (fun i n => (p i n : EReal)) j (vcol (headOf cc) (laneOf cc))) := by
  choose r hr1 hr2 using fun j => score_real p (headOf cc) i j
  have e1 : (fun j => ∑ d : Fin 32, segQ (qkvK (fun i n => (p i n : EReal))) i (hcol (headOf cc) d)
          * segK (qkvK (fun i n => (p i n : EReal))) j (hcol (headOf cc) d)) = fun j => (r j : EReal) := funext hr2
  have e2 : scoreR (fun i n => (p i n : EReal)) (headOf cc) i = fun j => (r j : EReal) := funext hr1
  have e3 : (fun j => segV (qkvK (fun i n => (p i n : EReal))) j cc)
      = fun j => ((p j (vcol (headOf cc) (laneOf cc)) : ℝ) : EReal) := funext fun j => segV_eq _ j cc
  rw [e1, e2, e3]
  exact attnK_eq_attnR r _

/-- On finite `X` and `Wqkv` the kernel's function is the reference's (`Wout` and `b` are arbitrary). -/
theorem KOut_eq_outR (X : Mat 4096 512) (W : Mat 512 1536) (Wo : Mat 512 512) (b : Fin 512 → EReal)
    (hX : ∀ i k, X i k ≠ ⊥ ∧ X i k ≠ ⊤) (hW : ∀ k n, W k n ≠ ⊥ ∧ W k n ≠ ⊤) :
    KOut X W Wo b = outR X W Wo b := by
  obtain ⟨p, hp⟩ := proj_real X W hX hW
  funext i n
  unfold KOut outK outRow outR concatR
  rw [hp]
  refine congrArg (· + b n) (Finset.sum_congr rfl ?_)
  intro cc _
  rw [head_eq p i cc]

end Cert.Attn

end
-- ==== Proof.Finite.lean ====
/-
  The precondition says every entry of the first two arguments is a real number.
-/
import proofs.«422940_j34505767256281_3_alg».proof.Pre_finite_inputs
import proofs.«422940_j34505767256281_3_alg».proof.Proof.Gen.Pre_finite_inputs
import Idealize.ShloMosaic.PureOps.Ideal
import Idealize.ShloMosaic.Lib.IdealHost
import Idealize.ShloMosaic.Lib.ReduceAll

noncomputable section

namespace Cert.Pre_finite_inputs.Fin

open Cert.Pre_finite_inputs
open Idealize.ShloMosaic

/-- The shape of a scalar has exactly one index. -/
instance : Subsingleton S_.Idx := ⟨fun a b => funext fun d => d.elim0⟩

/-- The binary32 pattern with all exponent bits set and no fraction bit is `+∞`. -/
theorem ofBits_inf : Ideal.ofBits .f32 0x7F800000#32 = (⊤ : EReal) := by
  simp [Ideal.ofBits, Ideal.ieee]

/-- An extended real whose absolute value `max x (-x)` is strictly below `+∞` is a real number:
    at `⊥` and at `⊤` the absolute value is `⊤`, which is not below itself. -/
theorem real_of_abs_lt_top (x : EReal) (h : Ideal.cmp .olt (max x (-x)) ⊤ = 1#1) : x ≠ ⊥ ∧ x ≠ ⊤ := by
  induction x using EReal.rec with
  | bot => simp [Ideal.cmp] at h
  | top => simp [Ideal.cmp] at h
  | coe r => exact ⟨EReal.coe_ne_bot r, EReal.coe_ne_top r⟩

/-- One entry of the comparison `|a| < +∞` being 1 says that entry of `a` is a real number. -/
theorem entry_real {T : Shape} (hb : S_.BroadcastsInDim T ![]) (a : FVec Ideal T .f32) (i : T.Idx)
    (h : cmpf .olt (Host.absf a) (broadcastInDim T ![] hb (constant S_ .f32 0x7F800000#32)) i = 1#1) :
    a i ≠ ⊥ ∧ a i ≠ ⊤ := by
  rw [ValueIdx.cmpf_apply, ValueIdx.broadcastInDim_scalar_apply, ValueIdx.constant_apply, ofBits_inf] at h
  exact real_of_abs_lt_top (a i) h

/-- If the printed predicate is all ones, no entry of `x` or of `Wqkv` is infinite. -/
theorem finite_of_fn [Cert.Pre_finite_inputs.Facts] (a0 : FVec Ideal S4096x512 .f32) (a1 : FVec Ideal S512x1536 .f32)
    (a2 : FVec Ideal S512x512 .f32) (a3 : FVec Ideal S512 .f32)
    (h : Cert.Pre_finite_inputs.fn (F := Ideal) a0 a1 a2 a3 = fun _ => 1#1) :
    (∀ i, a0 i ≠ ⊥ ∧ a0 i ≠ ⊤) ∧ (∀ i, a1 i ≠ ⊥ ∧ a1 i ≠ ⊤) := by
  have h0 := congrFun h ValueIdx.ix0
  dsimp only [fn, fn_part1] at h0
  obtain ⟨h012, _⟩ := IntOp.andi_eq_one.1 h0
  obtain ⟨h01, _⟩ := IntOp.andi_eq_one.1 h012
  obtain ⟨hx, hw⟩ := IntOp.andi_eq_one.1 h01
  exact ⟨fun i => entry_real _ a0 i (Host.reduce_andi_all _ _ _ _ _ hx i),
    fun i => entry_real _ a1 i (Host.reduce_andi_all _ _ _ _ _ hw i)⟩

end Cert.Pre_finite_inputs.Fin

end
-- ==== Proof.lean ====
/-
  Relu-kernel softmax attention with the output projection fused: the kernel (two calls: the qkv projection with relu
  and the scale folded in; then, per tile of 256 query rows, sixteen heads of exact softmax attention written side by side
  into a scratch block and multiplied by `Wout`, plus the bias) against the plain jnp reference.

  Over the extended reals the two differ in two places only: the kernel scales the queries before the score's sum where the
  reference scales the finished score, and the kernel divides the weighted value sum once where the reference normalises
  every weight first. Both moves are sound because the precondition makes every entry of `x` and `Wqkv` a real number
  (`Cert.Attn.KOut_eq_outR`). Everything else is bookkeeping: the kernel's result buffer is `KOut` of the arguments
  (`kernel_value`, from the two calls' arrays), the reference's is `outR` of them (`ref_value`).
-/
import proofs.«422940_j34505767256281_3_alg».proof.Defs
import proofs.«422940_j34505767256281_3_alg».proof.Proof.Gen.Kernel
import proofs.«422940_j34505767256281_3_alg».proof.Proof.Gen.Kernel.Frame
import proofs.«422940_j34505767256281_3_alg».proof.Proof.Gen.KernelIdeal
import proofs.«422940_j34505767256281_3_alg».proof.Proof.Gen.KernelIdeal.Frame
import proofs.«422940_j34505767256281_3_alg».proof.Proof.Gen.ReferenceIdeal
import proofs.«422940_j34505767256281_3_alg».proof.Proof.Gen.ReferenceIdeal.Run
import proofs.«422940_j34505767256281_3_alg».proof.Proof.Gen.Pre_finite_inputs
import proofs.«422940_j34505767256281_3_alg».proof.Proof.RunMain
import proofs.«422940_j34505767256281_3_alg».proof.Proof.KernelValue
import proofs.«422940_j34505767256281_3_alg».proof.Proof.Reference
import proofs.«422940_j34505767256281_3_alg».proof.Proof.Algebra
import proofs.«422940_j34505767256281_3_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result buffer at ONE function of the arguments: the kernel's at `KOut`, the reference's at
    `outR`, equal on the finite arguments the precondition admits. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => ofMat (KOut (toMat (m ((c.tc : Thread Cert.KernelIdeal.nD Cert.KernelIdeal.τ).loc Cert.KernelIdeal.main_arg0)))
      (toMat (m ((c.tc : Thread Cert.KernelIdeal.nD Cert.KernelIdeal.τ).loc Cert.KernelIdeal.main_arg1)))
      (toMat (m ((c.tc : Thread Cert.KernelIdeal.nD Cert.KernelIdeal.τ).loc Cert.KernelIdeal.main_arg2)))
      (toVec (m ((c.tc : Thread Cert.KernelIdeal.nD Cert.KernelIdeal.τ).loc Cert.KernelIdeal.main_arg3)))), ?_, ?_⟩
  · exact (θ_run Cert.KernelIdeal.defs _ _).mono
      (fun r h c => ⟨(h c).1.trans (Cert.KernelIdeal.KVal.kernel_value m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.ref_value m' c, (hagree c).1, (hagree c).2.1, (hagree c).2.2.1, (hagree c).2.2.2]
    obtain ⟨hX, hW⟩ := Cert.Pre_finite_inputs.Fin.finite_of_fn _ _ _ _ (hpre c)
    exact congrArg ofMat (KOut_eq_outR _ _ _ _ (fun i k => hX (ValueIdx.ix2 i k)) (fun k n => hW (ValueIdx.ix2 k n))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
